-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x640000 : Shape := ⟨2, ![2, 640000]⟩
abbrev S100000 : Shape := ⟨1, ![100000]⟩
abbrev S128x64 : Shape := ⟨2, ![128, 64]⟩
abbrev S64x128 : Shape := ⟨2, ![64, 128]⟩
abbrev S128 : Shape := ⟨1, ![128]⟩
abbrev S64 : Shape := ⟨1, ![64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S100000x1 : S_.BroadcastsInDim S100000x1 (![] : Fin 0 → Fin S100000x1.rank)
  reducesTo_S100000x1_S_d0_1 : S100000x1.ReducesTo [0, 1] S_

variable [Facts]

def fn_part1 {F : FTy → Type} [FloatOps F] (main_arg0 : IVec S100000x1 32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S100000x1 32 := broadcastInDim S100000x1 ![] bcast_S_S100000x1 main_c_8
  let main_v25 : IVec S100000x1 1 := cmpi .sge main_arg0 main_v24
  let main_c_9 : IVec S_ 32 := constantI S_ 32 128#32
  let main_v26 : IVec S100000x1 32 := broadcastInDim S100000x1 ![] bcast_S_S100000x1 main_c_9
  let main_v27 : IVec S100000x1 1 := cmpi .slt main_arg0 main_v26
  let main_v28 : IVec S100000x1 1 := andi main_v25 main_v27
  let main_c_10 : IVec S_ 1 := constantI S_ 1 1#1
  let main_v29 : IVec S_ 1 := (fun x v => Host.reduce IntOp.andi x v reducesTo_S100000x1_S_d0_1 h_S_) main_v28 main_c_10
  let main_v30 : IVec S_ 1 := andi main_v23 main_v29
  main_v30

def fn {F : FTy → Type} [FloatOps F] (main_arg0 : IVec S100000x1 32) (main_arg1 : IVec S2x640000 32) (main_arg2 : IVec S100000 32) (main_arg3 : FVec F S128x64 .f32) (main_arg4 : FVec F S64x128 .f32) (main_arg5 : FVec F S128 .f32) (main_arg6 : FVec F S128x64 .f32) (main_arg7 : FVec F S64 .f32) : IVec S_ 1 :=
  let main_v0 : FVec F S128x64 .f32 := Host.absf main_arg3
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg7 main_v13 main_v16
-- ==== Kernel.lean ====
abbrev S100000x1 : Shape := ⟨2, ![100000, 1]⟩
abbrev S2x640000 : Shape := ⟨2, ![2, 640000]⟩
abbrev S100000 : Shape := ⟨1, ![100000]⟩
abbrev S128x64 : Shape := ⟨2, ![128, 64]⟩
abbrev S64x128 : Shape := ⟨2, ![64, 128]⟩
abbrev S128 : Shape := ⟨1, ![128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S128x128 : Shape := ⟨2, ![128, 128]⟩
abbrev S100000x128 : Shape := ⟨2, ![100000, 128]⟩
abbrev S4000x1 : Shape := ⟨2, ![4000, 1]⟩
abbrev S4000x128 : Shape := ⟨2, ![4000, 128]⟩
abbrev S640000x128 : Shape := ⟨2, ![640000, 128]⟩
abbrev S1x128 : Shape := ⟨2, ![1, 128]⟩
abbrev S100000x64 : Shape := ⟨2, ![100000, 64]⟩
abbrev S4000x64 : Shape := ⟨2, ![4000, 64]⟩
abbrev S640000x64 : Shape := ⟨2, ![640000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 99
  | .vmem => 24
  | .smem => 0
  | _ => 0

abbrev bufTy : (tb : Table) → Fin (tcTables nBuf tb) → BufTy
  | .hbm, ⟨0, _⟩ => ⟨S100000x1, .i32⟩
  | .hbm, ⟨1, _⟩ => ⟨S2x640000, .i32⟩
  | .hbm, ⟨2, _⟩ => ⟨S100000, .i32⟩
  | .hbm, ⟨3, _⟩ => ⟨S128x64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S100000, .f32⟩
  | .hbm, ⟨17, _⟩ => ⟨S640000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S128x128, .f32⟩
  | .hbm, ⟨43, _⟩ => ⟨S100000x1, .i32⟩
  | .hbm, ⟨44, _⟩ => ⟨S100000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S640000x1, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S100000x1, .f32⟩
  | .hbm, ⟨62, _⟩ => ⟨S1x128, .f32⟩
  | .hbm, ⟨63, _⟩ => ⟨S100000x64, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x64, .f32⟩
  | .hbm, ⟨73, _⟩ => ⟨S640000x1, .f32⟩
  | .hbm, ⟨74, _⟩ => ⟨S640000x64, .f32⟩
  | .hbm, ⟨75, _⟩ => ⟨S640000x64, .f32⟩
  | .hbm, ⟨76, _⟩ => ⟨S_, .f32⟩
  | .hbm, ⟨77, _⟩ => ⟨S100000x64, .f32⟩
  | .hbm, ⟨78, _⟩ => ⟨S640000x1, .i32⟩
  | .hbm, ⟨79, _⟩ => ⟨S100000x64, .f32⟩
  | .hbm, ⟨80, _⟩ => ⟨S100000x1, .f32⟩
  | .hbm, ⟨81, _⟩ => ⟨S1x64, .f32⟩
  | .hbm, ⟨82, _⟩ => ⟨S100000x64, .f32⟩
  | .hbm, ⟨83, _⟩ => ⟨S_, .f32⟩
  | .hbm, ⟨84, _⟩ => ⟨S2000x64, .f32⟩
  | .hbm, ⟨85, _⟩ => ⟨S100000x1, .i32⟩
  | .hbm, ⟨86, _⟩ => ⟨S2000x64, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S2000, .f32⟩
  | .hbm, ⟨91, _⟩ => ⟨S100000x1, .i32⟩
  | .hbm, ⟨92, _⟩ => ⟨S2000, .f32⟩
  | .hbm, ⟨93, _⟩ => ⟨S_, .f32⟩
  | .hbm, ⟨94, _⟩ => ⟨S2000, .f32⟩
  | .hbm, ⟨95, _⟩ => ⟨S2000, .f32⟩
  | .hbm, ⟨96, _⟩ => ⟨S2000x1, .f32⟩
  | .hbm, ⟨97, _⟩ => ⟨S2000x64, .f32⟩
  | .hbm, ⟨98, _⟩ => ⟨S2000x64, .f32⟩
  | .local _ .vmem, ⟨0, _⟩ => ⟨S4000x1, .i32⟩
  | .local _ .vmem, ⟨1, _⟩ => ⟨S4000x1, .i32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x1, .f32⟩
  | .local _ .vmem, ⟨20, _⟩ => ⟨S4000x1, .f32⟩
  | .local _ .vmem, ⟨21, _⟩ => ⟨S1x64, .f32⟩
  | .local _ .vmem, ⟨22, _⟩ => ⟨S4000x64, .f32⟩
  | .local _ .vmem, ⟨23, _⟩ => ⟨S4000x64, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S100000x1_S100000 : S100000x1.ShapeCasts S100000
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  iota_S4000x128_d1_w32 : S4000x128.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S640000x1_S640000x64_0_1 : S640000x1.BroadcastsInDim S640000x64 (![0, 1] : Fin 2 → Fin S640000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S2000x64 : S_.BroadcastsInDim S2000x64 (![] : Fin 0 → Fin S2000x64.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S128x64_S64x128_S128x128_1_0_0_1_n_n_wf : DotDims.WF S128x64 S64x128 S128x128 [1] [0] [0] [1] [] []
  dot_S4000x128_S128x128_S4000x128_1_0_0_1_n_n_wf : DotDims.WF S4000x128 S128x128 S4000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x64_S4000x64_1_0_0_1_n_n_wf : DotDims.WF S4000x128 S128x64 S4000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .i32 = 32 ∨ (Rect.block (s := S100000x1) S4000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .f32 = 32 ∨ (Rect.block (s := S100000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

abbrev win0_0 : Pipeline.Window sig grid0 :=
  Pipeline.Window.ofSpec (Memref.whole main_v28) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x640000 : Shape := ⟨2, ![2, 640000]⟩
abbrev S100000 : Shape := ⟨1, ![100000]⟩
abbrev S128x64 : Shape := ⟨2, ![128, 64]⟩
abbrev S64x128 : Shape := ⟨2, ![64, 128]⟩
abbrev S128 : Shape := ⟨1, ![128]⟩
abbrev S64 : Shape := ⟨1, ![64]⟩
abbrev S1x640000 : Shape := ⟨2, ![1, 640000]⟩
abbrev S640000 : Shape := ⟨1, ![640000]⟩
abbrev S_ : Shape := ⟨0, ![]⟩
abbrev S100000x64 : Shape := ⟨2, ![100000, 64]⟩
abbrev S100000x128 : Shape := ⟨2, ![100000, 128]⟩
abbrev S640000x1 : Shape := ⟨2, ![640000, 1]⟩
abbrev S640000x128 : Shape := ⟨2, ![640000, 128]⟩
abbrev S1x128 : Shape := ⟨2, ![1, 128]⟩
abbrev S640000x64 : Shape := ⟨2, ![640000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 152
  | .vmem => 0
  | .smem => 0
  | _ => 0

abbrev hbmTy0_0 (i : Nat) : BufTy := match i % 128 with
  | 0 => ⟨S100000x1, .i32⟩
  | 1 => ⟨S2x640000, .i32⟩
  | 2 => ⟨S100000, .i32⟩
  | 3 => ⟨S128x64, .f32⟩
  | 4 => ⟨S64x128, .f32⟩
  | 5 => ⟨S128, .f32⟩
  | 6 => ⟨S128x64, .f32⟩
  | 7 => ⟨S64, .f32⟩
  | 8 => ⟨S1x640000, .i32⟩
  | 9 => ⟨S640000, .i32⟩
  | 10 => ⟨S1x640000, .i32⟩
  | 11 => ⟨S640000, .i32⟩
  | 12 => ⟨S100000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x64, .f32⟩
  | 22 => ⟨S100000x128, .f32⟩
  | 23 => ⟨S_, .f32⟩
  | 24 => ⟨S640000, .f32⟩
  | 25 => ⟨S_, .f32⟩
  | 26 => ⟨S100000, .f32⟩
  | 27 => ⟨S640000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000, .f32⟩
  | 51 => ⟨S640000, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S640000x1, .f32⟩
  | 62 => ⟨S640000x128, .f32⟩
  | 63 => ⟨S640000x128, .f32⟩
  | 64 => ⟨S_, .f32⟩
  | 65 => ⟨S100000x128, .f32⟩
  | 66 => ⟨S640000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x64, .f32⟩
  | 80 => ⟨S_, .f32⟩
  | 81 => ⟨S640000, .f32⟩
  | 82 => ⟨S_, .f32⟩
  | 83 => ⟨S100000, .f32⟩
  | 84 => ⟨S640000x1, .i32⟩
  | 85 => ⟨S100000, .f32⟩
  | 86 => ⟨S_, .f32⟩
  | 87 => ⟨S100000, .f32⟩
  | 88 => ⟨S100000, .f32⟩
  | 89 => ⟨S100000, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000, .f32⟩
  | 108 => ⟨S640000, .f32⟩
  | 109 => ⟨S_, .i32⟩
  | 110 => ⟨S640000, .i32⟩
  | 111 => ⟨S640000, .i1⟩
  | 112 => ⟨S_, .i32⟩
  | 113 => ⟨S640000, .i32⟩
  | 114 => ⟨S640000, .i32⟩
  | 115 => ⟨S640000, .i32⟩
  | 116 => ⟨S640000x1, .i32⟩
  | 117 => ⟨S640000x64, .f32⟩
  | 118 => ⟨S640000x1, .f32⟩
  | 119 => ⟨S640000x64, .f32⟩
  | 120 => ⟨S640000x64, .f32⟩
  | 121 => ⟨S_, .f32⟩
  | 122 => ⟨S100000x64, .f32⟩
  | 123 => ⟨S640000x1, .i32⟩
  | 124 => ⟨S100000x64, .f32⟩
  | 125 => ⟨S100000, .f32⟩
  | 126 => ⟨S100000x1, .f32⟩
  | 127 => ⟨S100000x64, .f32⟩
  | _ => ⟨S100000x1, .i32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S_, .f32⟩
  | 9 => ⟨S2000x64, .f32⟩
  | 10 => ⟨S100000x1, .i32⟩
  | 11 => ⟨S2000x64, .f32⟩
  | 12 => ⟨S_, .f32⟩
  | 13 => ⟨S100000, .f32⟩
  | 14 => ⟨S_, .f32⟩
  | 15 => ⟨S2000, .f32⟩
  | 16 => ⟨S100000x1, .i32⟩
  | 17 => ⟨S2000, .f32⟩
  | 18 => ⟨S_, .f32⟩
  | 19 => ⟨S2000, .f32⟩
  | 20 => ⟨S2000, .f32⟩
  | 21 => ⟨S2000x1, .f32⟩
  | 22 => ⟨S2000x64, .f32⟩
  | 23 => ⟨S2000x64, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call1_cst : Ref sig .tc := ⟨.hbm, 133, rfl⟩
abbrev main_call1_v0 : Ref sig .tc := ⟨.hbm, 134, rfl⟩
abbrev main_v101 : Ref sig .tc := ⟨.hbm, 135, rfl⟩
abbrev main_cst_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_21 : Ref sig .tc := ⟨.hbm, 140, rfl⟩
abbrev main_v105 : Ref sig .tc := ⟨.hbm, 141, rfl⟩
abbrev main_cst_22 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S640000x1_S640000x64_0_1 : S640000x1.BroadcastsInDim S640000x64 (![0, 1] : Fin 2 → Fin S640000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2000x64 : S_.BroadcastsInDim S2000x64 (![] : Fin 0 → Fin S2000x64.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x64_0_1 : S2000x1.BroadcastsInDim S2000x64 (![0, 1] : Fin 2 → Fin S2000x64.rank)
  gather_S128x64_S100000x1_S100000x64_1_0_n_n_0_1_164_wf : GatherDims.WF S128x64 S100000x1 S100000x64 [1] [0] [] [0] [] 1 ![1, 64]
  dot_S100000x64_S64x128_S100000x128_1_0_0_1_n_n_wf : DotDims.WF S100000x64 S64x128 S100000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x64_S100000x64_1_0_0_1_n_n_wf : DotDims.WF S100000x128 S128x64 S100000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  scatter_S2000x64_S100000x1_S100000x64_1_0_0_1_wf : ScatterDims.WF S2000x64 S100000x1 S100000x64 [1] [0] [0] 1
  scatter_S2000_S100000x1_S100000_n_0_0_1_wf : ScatterDims.WF S2000 S100000x1 S100000 [] [0] [0] 1

variable [Facts₀]

def gather_S128x64_S100000x1_S100000x64_1_0_n_n_0_1_164 : GatherDims S128x64 S100000x1 S100000x64 where
  offsetDims := [1]
  collapsedSliceDims := [0]
  operandBatchingDims := []
  startIndicesBatchingDims := []
  startIndexMap := [0]
  indexVectorDim := 1
  sliceSizes := ![1, 64]
  wf := gather_S128x64_S100000x1_S100000x64_1_0_n_n_0_1_164_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def scatter_S2000x64_S100000x1_S100000x64_1_0_0_1 : ScatterDims S2000x64 S100000x1 S100000x64 where
  updateWindowDims := [1]
  insertedWindowDims := [0]
  scatterDimsToOperandDims := [0]
  indexVectorDim := 1
  wf := scatter_S2000x64_S100000x1_S100000x64_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

class Facts : Prop extends Facts₀ where

variable [Facts]
-- ==== Proof.KernelHost.lean ====
/-
  The host operations of the kernel's program between its three regions, read one stretch at a time from an
  arbitrary entry valuation `Vin`.  Each stretch repeats, operation for operation, a passage of the reference
  program: the edge endpoints sliced out of edge_index; the inverse square roots of the node degrees and the edge
  normalisations d[src]·d[dst]; the messages h[src]·norm scatter-added at dst (once per layer); and the mean pooling
  over the batch vector.  So a stretch's result is the reference's stage of the same arguments, as soon as the
  arrays it starts from are the reference's stages; every buffer a stretch does not write is kept.
-/
import proofs.«410774_j68436008894533_2_alg».proof.Proof.Gen.KernelIdeal.Launch
import proofs.«410774_j68436008894533_2_alg».proof.Proof.Gen.ReferenceIdeal.Read
import Idealize.ShloMosaic.Lib.StableHlo.Run

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo
open Cert.ReferenceIdeal.Read

variable (Vin : Valuation τ sig (Elt Ideal))

/-! ## Before the first region: the graph's normalisation, the table emb·W1, the vocabulary words as a column -/

/-- The edge sources: row 0 of edge_index. -/
theorem stretch0_src : after (hostOps0 (F := Ideal)) Vin (Proc.devRef .tc main_v2) = val_main_v1 (F := Ideal) (Vin (Proc.devRef .tc main_arg1)) := by
  after_results_simp
  simp only [val_main_v1, val_main_v0]
  rfl

/-- The edge targets: row 1 of edge_index. -/
theorem stretch0_dst : after (hostOps0 (F := Ideal)) Vin (Proc.devRef .tc main_v4) = val_main_v3 (F := Ideal) (Vin (Proc.devRef .tc main_arg1)) := by
  after_results_simp
  simp only [val_main_v3, val_main_v2]
  rfl

/-- The inverse square root of (in-degree + 1), per node. -/
theorem stretch0_dinv : after (hostOps0 (F := Ideal)) Vin (Proc.devRef .tc main_v11) = val_main_v19 (F := Ideal) (Vin (Proc.devRef .tc main_arg1)) := by
  after_results_simp
  simp only [val_main_v2, val_main_v3, val_main_cst, val_main_v13, val_main_cst_1, val_main_v14, val_main_v15, val_main_v16, val_main_cst_2, val_main_v17, val_main_v18, val_main_v19]
  rfl

/-- The edge normalisation d[src]·d[dst]. -/
theorem stretch0_norm : after (hostOps0 (F := Ideal)) Vin (Proc.devRef .tc main_v26) = val_main_v34 (F := Ideal) (Vin (Proc.devRef .tc main_arg1)) := by
  after_results_simp
  simp only [val_main_v0, val_main_v1, val_main_v2, val_main_v3, val_main_cst, val_main_v13, val_main_cst_1, val_main_v14, val_main_v15, val_main_v16, val_main_cst_2, val_main_v17, val_main_v18, val_main_v19, val_main_c_3, val_main_v20, val_main_v21, val_main_c_4, val_main_v22, val_main_v23, val_main_v24, val_main_v25, val_main_v26, val_main_c_5, val_main_v27, val_main_v28, val_main_c_6, val_main_v29, val_main_v30, val_main_v31, val_main_v32, val_main_v33, val_main_v34]
  rfl

/-- The table: emb times W1. -/
theorem stretch0_table : (after (hostOps0 (F := Ideal)) Vin (Proc.devRef .tc main_v27) : FVec Ideal S128x128 .f32)
    = Host.dotGeneral (F := Ideal) (φ₁ := .f32) (φ₂ := .f32) dot_S128x64_S64x128_S128x128_1_0_0_1_n_n none
        (Vin (Proc.devRef .tc main_arg3) : FVec Ideal S128x64 .f32) (Vin (Proc.devRef .tc main_arg4) : FVec Ideal S64x128 .f32) := by
  after_results_simp

/-- The vocabulary words, flattened and set up as a column again. -/
theorem stretch0_words : after (hostOps0 (F := Ideal)) Vin (Proc.devRef .tc main_v28)
    = shapeCast S100000x1 (shapeCast S100000 (Vin (Proc.devRef .tc main_arg0)) shapeCasts_S100000x1_S100000) shapeCasts_S100000_S100000x1 := by
  after_results_simp
  rfl

theorem stretch0_keep_main_arg2 : after (hostOps0 (F := Ideal)) Vin (Proc.devRef .tc main_arg2) = Vin (Proc.devRef .tc main_arg2) := by
  after_results_simp
theorem stretch0_keep_main_arg5 : after (hostOps0 (F := Ideal)) Vin (Proc.devRef .tc main_arg5) = Vin (Proc.devRef .tc main_arg5) := by
  after_results_simp
theorem stretch0_keep_main_arg6 : after (hostOps0 (F := Ideal)) Vin (Proc.devRef .tc main_arg6) = Vin (Proc.devRef .tc main_arg6) := by
  after_results_simp
theorem stretch0_keep_main_arg7 : after (hostOps0 (F := Ideal)) Vin (Proc.devRef .tc main_arg7) = Vin (Proc.devRef .tc main_arg7) := by
  after_results_simp

/-! ## Between the first and the second region: the first layer's messages -/

/-- The first layer's aggregated messages, when the stretch starts from the reference's projection, endpoints and normalisation. -/
theorem stretch1_agg (x0 : (⟨Cert.ReferenceIdeal.S100000x1, .i32⟩ : BufTy).Contents (Elt Ideal)) (x1 : (⟨Cert.ReferenceIdeal.S2x640000, .i32⟩ : BufTy).Contents (Elt Ideal)) (x3 : (⟨Cert.ReferenceIdeal.S128x64, .f32⟩ : BufTy).Contents (Elt Ideal)) (x4 : (⟨Cert.ReferenceIdeal.S64x128, .f32⟩ : BufTy).Contents (Elt Ideal))
    (h29 : Vin (Proc.devRef .tc main_v29) = val_main_v12 (F := Ideal) x0 x3 x4)
    (h2 : Vin (Proc.devRef .tc main_v2) = val_main_v1 (F := Ideal) x1)
    (h4 : Vin (Proc.devRef .tc main_v4) = val_main_v3 (F := Ideal) x1)
    (h26 : Vin (Proc.devRef .tc main_v26) = val_main_v34 (F := Ideal) x1) :
    after (hostOps1 (F := Ideal)) Vin (Proc.devRef .tc main_v42) = val_main_v47 (F := Ideal) x0 x1 x3 x4 := by
  after_results_simp
  rw [h29, h2, h4, h26]
  simp only [val_main_c_7, val_main_v35, val_main_v36, val_main_c_8, val_main_v37, val_main_v38, val_main_v39, val_main_v40, val_main_v41, val_main_v42, val_main_v43, val_main_v44, val_main_cst_9, val_main_v45, val_main_v46, val_main_v47]
  rfl

/-- The inverse square roots as a column. -/
theorem stretch1_dcol : after (hostOps1 (F := Ideal)) Vin (Proc.devRef .tc main_v43)
    = shapeCast S100000x1 (Vin (Proc.devRef .tc main_v11)) shapeCasts_S100000_S100000x1 := by
  after_results_simp
  rfl

/-- The first bias as a row. -/
theorem stretch1_brow : after (hostOps1 (F := Ideal)) Vin (Proc.devRef .tc main_v44)
    = shapeCast S1x128 (Vin (Proc.devRef .tc main_arg5)) shapeCasts_S128_S1x128 := by
  after_results_simp
  rfl

theorem stretch1_keep_main_v29 : after (hostOps1 (F := Ideal)) Vin (Proc.devRef .tc main_v29) = Vin (Proc.devRef .tc main_v29) := by
  after_results_simp
theorem stretch1_keep_main_v2 : after (hostOps1 (F := Ideal)) Vin (Proc.devRef .tc main_v2) = Vin (Proc.devRef .tc main_v2) := by
  after_results_simp
theorem stretch1_keep_main_v4 : after (hostOps1 (F := Ideal)) Vin (Proc.devRef .tc main_v4) = Vin (Proc.devRef .tc main_v4) := by
  after_results_simp
theorem stretch1_keep_main_v26 : after (hostOps1 (F := Ideal)) Vin (Proc.devRef .tc main_v26) = Vin (Proc.devRef .tc main_v26) := by
  after_results_simp
theorem stretch1_keep_main_v11 : after (hostOps1 (F := Ideal)) Vin (Proc.devRef .tc main_v11) = Vin (Proc.devRef .tc main_v11) := by
  after_results_simp
theorem stretch1_keep_main_arg2 : after (hostOps1 (F := Ideal)) Vin (Proc.devRef .tc main_arg2) = Vin (Proc.devRef .tc main_arg2) := by
  after_results_simp
theorem stretch1_keep_main_arg6 : after (hostOps1 (F := Ideal)) Vin (Proc.devRef .tc main_arg6) = Vin (Proc.devRef .tc main_arg6) := by
  after_results_simp
theorem stretch1_keep_main_arg7 : after (hostOps1 (F := Ideal)) Vin (Proc.devRef .tc main_arg7) = Vin (Proc.devRef .tc main_arg7) := by
  after_results_simp

/-! ## Between the second and the third region: the second layer's messages -/

/-- The second layer's aggregated messages. -/
theorem stretch2_agg (x0 : (⟨Cert.ReferenceIdeal.S100000x1, .i32⟩ : BufTy).Contents (Elt Ideal)) (x1 : (⟨Cert.ReferenceIdeal.S2x640000, .i32⟩ : BufTy).Contents (Elt Ideal)) (x3 : (⟨Cert.ReferenceIdeal.S128x64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x64, .f32⟩ : BufTy).Contents (Elt Ideal))
    (h45 : Vin (Proc.devRef .tc main_v45) = val_main_v57 (F := Ideal) x0 x1 x3 x4 x5 x6)
    (h2 : Vin (Proc.devRef .tc main_v2) = val_main_v1 (F := Ideal) x1)
    (h4 : Vin (Proc.devRef .tc main_v4) = val_main_v3 (F := Ideal) x1)
    (h26 : Vin (Proc.devRef .tc main_v26) = val_main_v79 (F := Ideal) x1) :
    after (hostOps2 (F := Ideal)) Vin (Proc.devRef .tc main_v58) = val_main_v92 (F := Ideal) x0 x1 x3 x4 x5 x6 := by
  after_results_simp
  rw [h45, h2, h4, h26]
  simp only [val_main_c_17, val_main_v80, val_main_v81, val_main_c_18, val_main_v82, val_main_v83, val_main_v84, val_main_v85, val_main_v86, val_main_v87, val_main_v88, val_main_v89, val_main_cst_19, val_main_v90, val_main_v91, val_main_v92]
  rfl

/-- The inverse square roots as a column. -/
theorem stretch2_dcol : after (hostOps2 (F := Ideal)) Vin (Proc.devRef .tc main_v59)
    = shapeCast S100000x1 (Vin (Proc.devRef .tc main_v11)) shapeCasts_S100000_S100000x1 := by
  after_results_simp
  rfl

/-- The second bias as a row. -/
theorem stretch2_brow : after (hostOps2 (F := Ideal)) Vin (Proc.devRef .tc main_v60)
    = shapeCast S1x64 (Vin (Proc.devRef .tc main_arg7)) shapeCasts_S64_S1x64 := by
  after_results_simp
  rfl

theorem stretch2_keep_main_v45 : after (hostOps2 (F := Ideal)) Vin (Proc.devRef .tc main_v45) = Vin (Proc.devRef .tc main_v45) := by
  after_results_simp
theorem stretch2_keep_main_arg2 : after (hostOps2 (F := Ideal)) Vin (Proc.devRef .tc main_arg2) = Vin (Proc.devRef .tc main_arg2) := by
  after_results_simp

/-! ## After the third region: the mean over each graph's nodes -/

/-- The pooled result, when the stretch starts from the reference's second activation. -/
theorem stretch3_out (x0 : (⟨Cert.ReferenceIdeal.S100000x1, .i32⟩ : BufTy).Contents (Elt Ideal)) (x1 : (⟨Cert.ReferenceIdeal.S2x640000, .i32⟩ : BufTy).Contents (Elt Ideal)) (x2 : (⟨Cert.ReferenceIdeal.S100000, .i32⟩ : BufTy).Contents (Elt Ideal)) (x3 : (⟨Cert.ReferenceIdeal.S128x64, .f32⟩ : BufTy).Contents (Elt Ideal)) (x4 : (⟨Cert.ReferenceIdeal.S64x128, .f32⟩ : BufTy).Contents (Elt Ideal)) (x5 : (⟨Cert.ReferenceIdeal.S128, .f32⟩ : BufTy).Contents (Elt Ideal)) (x6 : (⟨Cert.ReferenceIdeal.S128x64, .f32⟩ : BufTy).Contents (Elt Ideal)) (x7 : (⟨Cert.ReferenceIdeal.S64, .f32⟩ : BufTy).Contents (Elt Ideal))
    (h61 : Vin (Proc.devRef .tc main_v61) = val_main_v101 (F := Ideal) x0 x1 x3 x4 x5 x6 x7)
    (hb : Vin (Proc.devRef .tc main_arg2) = x2) :
    after (hostOps3 (F := Ideal)) Vin (Proc.devRef .tc main_v73) = val_main_v113 (F := Ideal) x0 x1 x2 x3 x4 x5 x6 x7 := by
  after_results_simp
  rw [h61, hb]
  simp only [val_main_cst_20, val_main_v102, val_main_v103, val_main_v104, val_main_cst_21, val_main_v105, val_main_cst_22, val_main_v106, val_main_v107, val_main_v108, val_main_cst_23, val_main_v109, val_main_v110, val_main_v111, val_main_v112, val_main_v113]
  rfl

end Cert.KernelIdeal.HostStages

end
-- ==== Proof.Spec.lean ====
/-
  The three node-wise stages of the graph network as functions of whole arrays, one element at a time, on the
  extended reals.  Rows are nodes (100000 of them); columns are features.

  * `hw1`: row r of the first projection is the row of the table T selected by the node's vocabulary word,
    written as the product of a one-hot row with T:  hw1[r, c] = Σ_k [x[r] = k] · T[k, c].
  * `hw2`: the first layer's activation  max(a + h·d² + b, 0)  (a the aggregated messages, h the node's own
    projection, d the inverse square root of the node's degree, b the bias) multiplied into the second weight
    matrix:  hw2[r, c] = Σ_k max(a[r,k] + h[r,k]·(d[r]·d[r]) + b[k], 0) · W[k, c].
  * `h2`: the second layer's activation, the same formula with no matrix after it.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of literal extents. -/
abbrev A2 (n0 n1 : Nat) (α : Type) : Type := (⟨2, ![n0, n1]⟩ : Shape).Idx → α

/-- The zero the activations are clipped at: the float word 0x00000000 read on the extended reals. -/
abbrev zeroWord : EReal := Ideal.ofBits .f32 0x00000000#32

/-- Entry k of the one-hot row of a vocabulary word: 1 where the word is k, else 0. -/
def hot (w : BitVec 32) (k : Fin 128) : EReal := if w = BitVec.ofNat 32 k.val then 1 else 0

/-- Element (r, c) of the one-hot rows times the table. -/
def hw1At (x : A2 100000 1 (BitVec 32)) (T : A2 128 128 EReal) (r : Fin 100000) (c : Fin 128) : EReal :=
  ∑ k : Fin 128, hot (x (ix2 r (0 : Fin 1))) k * T (ix2 k c)

/-- The one-hot rows times the table, as an array. -/
def hw1 (x : A2 100000 1 (BitVec 32)) (T : A2 128 128 EReal) : A2 100000 128 EReal :=
  fun i => hw1At x T ⟨(i 0).val, idx2_lt0 i⟩ ⟨(i 1).val, idx2_lt1 i⟩

/-- Element (r, k) of the first layer's activation max(a + h·d² + b, 0). -/
def act1At (a h : A2 100000 128 EReal) (d : A2 100000 1 EReal) (b : A2 1 128 EReal) (r : Fin 100000) (k : Fin 128) : EReal :=
  max ((a (ix2 r k) + h (ix2 r k) * (d (ix2 r (0 : Fin 1)) * d (ix2 r (0 : Fin 1)))) + b (ix2 (0 : Fin 1) k)) zeroWord

/-- Element (r, c) of the first activation times the second weight matrix. -/
def hw2At (a h : A2 100000 128 EReal) (d : A2 100000 1 EReal) (b : A2 1 128 EReal) (W : A2 128 64 EReal)
    (r : Fin 100000) (c : Fin 64) : EReal :=
  ∑ k : Fin 128, act1At a h d b r k * W (ix2 k c)

/-- The first activation times the second weight matrix, as an array. -/
def hw2 (a h : A2 100000 128 EReal) (d : A2 100000 1 EReal) (b : A2 1 128 EReal) (W : A2 128 64 EReal) : A2 100000 64 EReal :=
  fun i => hw2At a h d b W ⟨(i 0).val, idx2_lt0 i⟩ ⟨(i 1).val, idx2_lt1 i⟩

/-- Element (r, c) of the second layer's activation max(a + h·d² + b, 0). -/
def h2At (a h : A2 100000 64 EReal) (d : A2 100000 1 EReal) (b : A2 1 64 EReal) (r : Fin 100000) (c : Fin 64) : EReal :=
  max ((a (ix2 r c) + h (ix2 r c) * (d (ix2 r (0 : Fin 1)) * d (ix2 r (0 : Fin 1)))) + b (ix2 (0 : Fin 1) c)) zeroWord

/-- The second layer's activation, as an array. -/
def h2 (a h : A2 100000 64 EReal) (d : A2 100000 1 EReal) (b : A2 1 64 EReal) : A2 100000 64 EReal :=
  fun i => h2At a h d b ⟨(i 0).val, idx2_lt0 i⟩ ⟨(i 1).val, idx2_lt1 i⟩

end Cert.Spec

end
-- ==== Proof.Region0.lean ====
/-
  Region 0: the one-hot rows times the table.  Each of the 25 grid points takes 4000 consecutive rows of the
  vocabulary words, builds for every row r the row of indicators [x[r] = k] (k < 128) and multiplies it into the
  whole table T; the 25 blocks of 4000 rows tile the 100000 rows, so the array the region leaves is
  hw1[r, c] = Σ_k [x[r] = k] · T[k, c].
-/
import proofs.«410774_j68436008894533_2_alg».proof.Proof.Gen.KernelIdeal.Frame
import proofs.«410774_j68436008894533_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open scoped BigOperators

/-! ## One entry of the one-hot row -/

/-- The comparison bit of a word with the column number k, widened to a word and converted, is the indicator
    [w = k]: the bit is 1 exactly when the two words are equal. -/
theorem hot_word (w : BitVec 32) (k : Fin 128) :
    ((((IntOp.cmpi .eq w (BitVec.ofNat 32 k.val)).setWidth 32).toInt : ℝ) : EReal) = Cert.Spec.hot w k := by
  unfold Cert.Spec.hot
  rw [toInt_setWidth_bit]
  by_cases h : w = BitVec.ofNat 32 k.val
  · rw [if_pos h]; subst h; simp [IntOp.cmpi]
  · rw [if_neg h]; simp [IntOp.cmpi, h]

/-! ## The payload at an index -/

/-- The contraction's index maps, axis by axis: the left operand is read at (row of the output index, contracted
    coordinate), the right operand at (contracted coordinate, column of the output index). -/
theorem lhs_D0_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_D0_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_D0_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_D0_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (r, c) of the block the body stores: the sum over the 128 columns k of the indicator that row r's word
    is k, times entry (k, c) of the table block. -/
theorem pay_apply (xb : Vec Ideal S4000x1 .i32) (Tb : Vec Ideal S128x128 .f32) (r : Fin 4000) (c : Fin 128) :
    k0_pay1 (F := Ideal) xb Tb (ix2 r c) = ∑ k : Fin 128, Cert.Spec.hot (xb (ix2 r (0 : Fin 1))) k * Tb (ix2 k c) := by
  unfold k0_pay1
  show FloatOps.matmul dot_S4000x128_S128x128_S4000x128_1_0_0_1_n_n none _ _ (constant S4000x128 .f32 0x00000000#32) (ix2 r c) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r c) ((ValueIdx.contrEquiv1 dot_S4000x128_S128x128_S4000x128_1_0_0_1_n_n 128 rfl rfl).symm k) = ix2 r k := funext fun a => Fin.ext (by
    match a with
    | ⟨0, _⟩ => exact lhs_D0_0 _ _
    | ⟨1, _⟩ => exact (lhs_D0_1 _ _).trans hk)
  have er : dot_S4000x128_S128x128_S4000x128_1_0_0_1_n_n.rhsIdx (ix2 r c) ((ValueIdx.contrEquiv1 dot_S4000x128_S128x128_S4000x128_1_0_0_1_n_n 128 rfl rfl).symm k) = ix2 k c := funext fun a => Fin.ext (by
    match a with
    | ⟨0, _⟩ => exact (rhs_D0_0 _ _).trans hk
    | ⟨1, _⟩ => exact rhs_D0_1 _ _)
  rw [el, er, shapeCast_self, shapeCast_self]
  have hb : broadcastTo S4000x128 xb broadcasts_S4000x1_S4000x128 (ix2 r k) = xb (ix2 r (0 : Fin 1)) :=
    broadcastTo_apply xb broadcasts_S4000x1_S4000x128 (ix2 r k) (ix2 r (0 : Fin 1)) (fun a => by
      match a with
      | ⟨0, _⟩ => show r.val = if (4000 : Nat) = 1 then 0 else r.val; rw [if_neg (by decide)]
      | ⟨1, _⟩ => show (0 : Nat) = if (1 : Nat) = 1 then 0 else k.val; rw [if_pos rfl])
  show ((((IntOp.cmpi .eq (broadcastTo S4000x128 xb broadcasts_S4000x1_S4000x128 (ix2 r k)) (BitVec.ofNat 32 (0 * 128 + k.val))).setWidth 32).toInt : ℝ) : EReal) * Tb (ix2 k c) = _
  rw [hb, Nat.zero_mul, Nat.zero_add, hot_word]

/-! ## From the blocks to the array -/

variable (V : (c : Dev nD) → (b : Ref sig .tc) → Buf (Elt Ideal) ((c : Thread nD τ).loc b))

/-- The offset (0, 0) is the zero offset on both axes. -/
theorem hz : (![0, 0] : Fin 2 → Nat) = fun _ => 0 := funext fun a => by fin_cases a <;> rfl

/-- The block indices over the grid: at point t the words' block and the output's block are block t of their
    arrays along the rows (and block 0 along the columns); the table is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the one-hot rows times the table. -/
theorem flushed_eq (c : Dev nD) (t : Fin cfg0.N) :
    (dat0 (F := Ideal) V c).flushed 2 t = ((cfg0.win 2).blk t).view.read (Elt Ideal) (Cert.Spec.hw1 (V c main_v28) (V c main_v27)) := by
  show (cfg0.win 2).cut (grid0.coords t) ((dat0 V c).after 2 t) = _
  rw [after0_2]
  unfold out0_2
  rw [View.canon_unit_zero hz]
  simp only [View.ld_unit_zero (S := S4000x1) hz, View.ld_unit_zero (S := S128x128) hz]
  obtain ⟨e0, e1, e2, e3, e4, e5⟩ := idx_facts t
  funext j
  show k0_pay1 (F := Ideal) (iblk0 V c 0 t) (iblk0 V c 1 t) j = Cert.Spec.hw1 (V c main_v28) (V c main_v27) (((cfg0.win 2).blk t).view.emb j)
  refine (congrArg (k0_pay1 (F := Ideal) (iblk0 V c 0 t) (iblk0 V c 1 t)) (eq_ix2 (n0 := 4000) (n1 := 128) j)).trans ?_
  refine (pay_apply (iblk0 V c 0 t) (iblk0 V c 1 t) (j 0) (j 1)).trans ?_
  unfold Cert.Spec.hw1 Cert.Spec.hw1At
  show _ = ∑ k : Fin 128, _
  refine Finset.sum_congr rfl fun k _ => ?_
  refine congrArg₂ (· * ·) (congrArg (fun w => Cert.Spec.hot w k) ?_) ?_
  · show V c main_v28 (((cfg0.win 0).blk t).view.emb (ix2 (j 0) (0 : Fin 1))) = V c main_v28 _
    refine congrArg (V c main_v28) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 1 + 1 * 0 = 0; omega
  · show V c main_v27 (((cfg0.win 1).blk t).view.emb (ix2 k (j 1))) = V c main_v27 _
    refine congrArg (V c main_v27) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v29).slice (win0_2.rect t)).set ↔ _
  rw [View.set_slice_whole, Rect.mem_set_unit]
  exact Iff.rfl

/-- Every row r lies in the block of the point r / 4000 (25 blocks of 4000 rows are the 100000 rows), and every
    column in the one block of 128 columns. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 4000 < cfg0.N := by show _ < 25; omega
  obtain ⟨t, hq⟩ : ∃ t : Fin cfg0.N, t.val = (i 0).val / 4000 := ⟨⟨_, ht⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The array region 0 leaves: the one-hot rows of the vocabulary words times the table. -/
theorem final0 (c : Dev nD) :
    (dat0 (F := Ideal) V c).arrAt 2 cfg0.N = Cert.Spec.hw1 (V c main_v28) (V c main_v27) :=
  (dat0 V c).arrAt_eq_of_cover 2 (Cert.Spec.hw1 (V c main_v28) (V c main_v27)) (fun t _ => flushed_eq V c t) cover

end Cert.KernelIdeal.Region0

end
-- ==== Proof.Region1.lean ====
/-
  Region 1 of the program: the first layer's activation times the second weight matrix.

  The region is a grid of 25 points; point t reads rows [4000 t, 4000 t + 4000) of the aggregated messages a, of the
  node's own projection h and of the inverse square roots d of the degrees, the whole bias row b and the whole
  weight matrix W, and writes rows [4000 t, 4000 t + 4000) of the result.  Inside a block, element (r, c) of what the
  body stores is  Σ_k max(a[r,k] + h[r,k]·(d[r]·d[r]) + b[k], 0) · W[k, c]:  the pointwise operations read at an
  index, the narrowing of the formats the identity on the extended reals, and the product into a zero accumulator the
  sum over the contraction index.  The 25 row blocks tile the 100000 rows (row r is in block r / 4000), so the array
  the region leaves is that function of the whole arrays, `Cert.Spec.hw2`.
-/
import proofs.«410774_j68436008894533_2_alg».proof.Proof.Gen.KernelIdeal.Frame
import proofs.«410774_j68436008894533_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's result at an index of its block -/

/-- Row index of the left operand of the product: the output's row. -/
theorem lhs_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- Column index of the left operand: the contraction index. -/
theorem lhs_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- Row index of the right operand: the contraction index. -/
theorem rhs_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- Column index of the right operand: the output's column. -/
theorem rhs_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- d·d, one column, broadcast along the 128 columns, read at (r, k): the entry of row r. -/
theorem bcast_col (x : Vec Ideal S4000x1 .f32) (r : Fin 4000) (k : Fin 128) :
    broadcastTo S4000x128 x broadcasts_S4000x1_S4000x128 (ix2 r k) = x (ix2 r (0 : Fin 1)) :=
  broadcastTo_apply x broadcasts_S4000x1_S4000x128 (ix2 r k) (ix2 r (0 : Fin 1)) (fun a => match a with
    | ⟨0, _⟩ => by show r.val = if (4000 : Nat) = 1 then 0 else r.val; rw [if_neg (by decide)]
    | ⟨1, _⟩ => by show (0 : Nat) = if (1 : Nat) = 1 then 0 else k.val; rw [if_pos rfl])

/-- The bias row broadcast along the 4000 rows, read at (r, k): the entry of column k. -/
theorem bcast_row (x : Vec Ideal S1x128 .f32) (r : Fin 4000) (k : Fin 128) :
    broadcastTo S4000x128 x broadcasts_S1x128_S4000x128 (ix2 r k) = x (ix2 (0 : Fin 1) k) :=
  broadcastTo_apply x broadcasts_S1x128_S4000x128 (ix2 r k) (ix2 (0 : Fin 1) k) (fun a => match a with
    | ⟨0, _⟩ => by show (0 : Nat) = if (1 : Nat) = 1 then 0 else r.val; rw [if_pos rfl]
    | ⟨1, _⟩ => by show k.val = if (128 : Nat) = 1 then 0 else k.val; rw [if_neg (by decide)])

/-- Element (r, c) of what the body stores, from its five blocks. -/
theorem pay_apply (d : Vec Ideal S4000x1 .f32) (h a : Vec Ideal S4000x128 .f32) (b : Vec Ideal S1x128 .f32) (W : Vec Ideal S128x64 .f32)
    (r : Fin 4000) (c : Fin 64) :
    k1_pay1 d h a b W (ix2 r c) = ∑ k : Fin 128,
      max ((a (ix2 r k) + h (ix2 r k) * (d (ix2 r (0 : Fin 1)) * d (ix2 r (0 : Fin 1)))) + b (ix2 (0 : Fin 1) k)) Cert.Spec.zeroWord * W (ix2 k c) := by
  unfold k1_pay1
  simp only [shapeCast_self]
  refine (Ideal.matmul_constant_zero_apply dot_S4000x128_S128x64_S4000x64_1_0_0_1_n_n none _ _ _).trans ?_
  rw [← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 r c) ((ValueIdx.contrEquiv1 dot_S4000x128_S128x64_S4000x64_1_0_0_1_n_n 128 rfl rfl).symm k) = ix2 r k := funext fun x => Fin.ext (by
    match x with
    | ⟨0, _⟩ => exact lhs_0 _ _
    | ⟨1, _⟩ => exact (lhs_1 _ _).trans hk)
  have er : dot_S4000x128_S128x64_S4000x64_1_0_0_1_n_n.rhsIdx (ix2 r c) ((ValueIdx.contrEquiv1 dot_S4000x128_S128x64_S4000x64_1_0_0_1_n_n 128 rfl rfl).symm k) = ix2 k c := funext fun x => Fin.ext (by
    match x with
    | ⟨0, _⟩ => exact (rhs_0 _ _).trans hk
    | ⟨1, _⟩ => exact rhs_1 _ _)
  rw [el, er]
  rw [truncf_apply, truncf_apply, maximumf_apply, addf_apply, addf_apply, mulf_apply, broadcast_apply, bcast_col, bcast_row, mulf_apply]
  rfl

/-! ## The windows' blocks over the grid -/

theorem hz : (![0, 0] : Fin 2 → Nat) = fun _ => 0 := funext fun a => by fin_cases a <;> rfl

/-- The grid has 25 points. -/
theorem N_eq : cfg1.N = 25 := by decide

/-- The index maps, decided over the 25 points: the row-blocked windows (a, h, d and the result) are at block row t
    at point t, block column 0; the bias row and the weight matrix are one block, at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (r, k) of a's block at point t is a[4000 t + r, k]. -/
theorem blk0_apply (c : Dev nD) (t : Fin cfg1.N) (r : Fin 4000) (k : Fin 128) (R : Fin 100000) (hR : R.val = t.val * 4000 + r.val) :
    iblk1 V c 0 t (ix2 r k) = V c main_v42 (ix2 R k) := by
  obtain ⟨e0, e1, -⟩ := idx_facts t
  show V c main_v42 (((cfg1.win 0).blk t).view.emb (ix2 r k)) = V c main_v42 (ix2 R k)
  refine congrArg (V c main_v42) (funext fun a => Fin.ext ?_)
  match a with
  | ⟨0, _⟩ => show win1_0.index t (0 : Fin 2) * 4000 + 1 * r.val = R.val; omega
  | ⟨1, _⟩ => show win1_0.index t (1 : Fin 2) * 128 + 1 * k.val = k.val; omega

/-- Entry (r, k) of h's block at point t is h[4000 t + r, k]. -/
theorem blk1_apply (c : Dev nD) (t : Fin cfg1.N) (r : Fin 4000) (k : Fin 128) (R : Fin 100000) (hR : R.val = t.val * 4000 + r.val) :
    iblk1 V c 1 t (ix2 r k) = V c main_v29 (ix2 R k) := by
  obtain ⟨-, -, e0, e1, -⟩ := idx_facts t
  show V c main_v29 (((cfg1.win 1).blk t).view.emb (ix2 r k)) = V c main_v29 (ix2 R k)
  refine congrArg (V c main_v29) (funext fun a => Fin.ext ?_)
  match a with
  | ⟨0, _⟩ => show win1_1.index t (0 : Fin 2) * 4000 + 1 * r.val = R.val; omega
  | ⟨1, _⟩ => show win1_1.index t (1 : Fin 2) * 128 + 1 * k.val = k.val; omega

/-- Entry (r, 0) of d's block at point t is d[4000 t + r, 0]. -/
theorem blk2_apply (c : Dev nD) (t : Fin cfg1.N) (r : Fin 4000) (R : Fin 100000) (hR : R.val = t.val * 4000 + r.val) :
    iblk1 V c 2 t (ix2 r (0 : Fin 1)) = V c main_v43 (ix2 R (0 : Fin 1)) := by
  obtain ⟨-, -, -, -, e0, e1, -⟩ := idx_facts t
  show V c main_v43 (((cfg1.win 2).blk t).view.emb (ix2 r (0 : Fin 1))) = V c main_v43 (ix2 R (0 : Fin 1))
  refine congrArg (V c main_v43) (funext fun a => Fin.ext ?_)
  match a with
  | ⟨0, _⟩ => show win1_2.index t (0 : Fin 2) * 4000 + 1 * r.val = R.val; omega
  | ⟨1, _⟩ => show win1_2.index t (1 : Fin 2) * 1 + 1 * 0 = 0; omega

/-- The bias row's one block is the bias row. -/
theorem blk3_apply (c : Dev nD) (t : Fin cfg1.N) (k : Fin 128) :
    iblk1 V c 3 t (ix2 (0 : Fin 1) k) = V c main_v44 (ix2 (0 : Fin 1) k) := by
  obtain ⟨-, -, -, -, -, -, e0, e1, -⟩ := idx_facts t
  show V c main_v44 (((cfg1.win 3).blk t).view.emb (ix2 (0 : Fin 1) k)) = V c main_v44 (ix2 (0 : Fin 1) k)
  refine congrArg (V c main_v44) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- The weight matrix's one block is the weight matrix. -/
theorem blk4_apply (c : Dev nD) (t : Fin cfg1.N) (k : Fin 128) (q : Fin 64) :
    iblk1 V c 4 t (ix2 k q) = V c main_arg6 (ix2 k q) := by
  obtain ⟨-, -, -, -, -, -, -, -, e0, e1, -⟩ := idx_facts t
  show V c main_arg6 (((cfg1.win 4).blk t).view.emb (ix2 k q)) = V c main_arg6 (ix2 k q)
  refine congrArg (V c main_arg6) (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

/-- Element (r, q) of what the body stores at point t is element (4000 t + r, q) of the whole-array function. -/
theorem pay_blk (c : Dev nD) (t : Fin cfg1.N) (r : Fin 4000) (q : Fin 64) (R : Fin 100000) (Q : Fin 64)
    (hR : R.val = t.val * 4000 + r.val) (hQ : Q.val = q.val) :
    k1_pay1 (iblk1 V c 2 t) (iblk1 V c 1 t) (iblk1 V c 0 t) (iblk1 V c 3 t) (iblk1 V c 4 t) (ix2 r q)
      = Cert.Spec.hw2At (V c main_v42) (V c main_v29) (V c main_v43) (V c main_v44) (V c main_arg6) R Q := by
  obtain rfl : Q = q := Fin.ext hQ
  refine (pay_apply (iblk1 V c 2 t) (iblk1 V c 1 t) (iblk1 V c 0 t) (iblk1 V c 3 t) (iblk1 V c 4 t) r Q).trans ?_
  unfold Cert.Spec.hw2At Cert.Spec.act1At
  refine Finset.sum_congr rfl fun k _ => ?_
  rw [blk0_apply V c t r k R hR, blk1_apply V c t r k R hR, blk2_apply V c t r R hR, blk3_apply V c t k, blk4_apply V c t k Q]

/-! ## From the blocks to the array -/

/-- What point t writes back is block t of the whole-array function of the arrays the region finds. -/
theorem flushed5_eq (c : Dev nD) (t : Fin cfg1.N) :
    (dat1 (F := Ideal) V c).flushed 5 t = ((cfg1.win 5).blk t).view.read (Elt Ideal)
      (Cert.Spec.hw2 (V c main_v42) (V c main_v29) (V c main_v43) (V c main_v44) (V c main_arg6)) := by
  show (cfg1.win 5).cut (grid1.coords t) ((dat1 (F := Ideal) V c).after 5 t) = _
  rw [after1_5]
  unfold out1_5
  rw [View.canon_unit_zero hz]
  simp only [View.ld_unit_zero (S := S4000x1) hz, View.ld_unit_zero (S := S4000x128) hz, View.ld_unit_zero (S := S1x128) hz, View.ld_unit_zero (S := S128x64) hz]
  obtain ⟨-, -, -, -, -, -, -, -, -, -, e0, e1⟩ := idx_facts t
  funext j
  refine (congrArg (k1_pay1 (iblk1 V c 2 t) (iblk1 V c 1 t) (iblk1 V c 0 t) (iblk1 V c 3 t) (iblk1 V c 4 t))
    (eq_ix2 (n0 := 4000) (n1 := 64) ((cfg1.win 5).xinj (grid1.coords t) j))).trans ?_
  exact pay_blk V c t _ _ ⟨_, idx2_lt0 _⟩ ⟨_, idx2_lt1 _⟩
    (by show win1_5.index t (0 : Fin 2) * 4000 + 1 * (j 0).val = t.val * 4000 + (j 0).val; omega)
    (by show win1_5.index t (1 : Fin 2) * 64 + 1 * (j 1).val = (j 1).val; omega)

/-- An index of the result array is in point t's block iff each coordinate is in the block's range on its axis. -/
theorem mem_blk5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v45).slice (win1_5.rect t)).set ↔ _
  rw [View.set_slice_whole, Rect.mem_set_unit]
  exact Iff.rfl

/-- Every index of the result array is in some point's block: row r is in block r / 4000. -/
theorem cover5 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have ht : (i 0).val / 4000 < cfg1.N := by rw [N_eq]; omega
  obtain ⟨-, -, -, -, -, -, -, -, -, -, e0, e1⟩ := idx_facts ⟨(i 0).val / 4000, ht⟩
  have e0' : win1_5.index ⟨(i 0).val / 4000, ht⟩ (0 : Fin 2) = (i 0).val / 4000 := e0
  refine ⟨⟨(i 0).val / 4000, ht⟩, flush1_5 _, ?_⟩
  rw [mem_blk5]
  intro a
  match a with
  | ⟨0, _⟩ => show win1_5.index ⟨(i 0).val / 4000, ht⟩ (0 : Fin 2) * 4000 ≤ (i 0).val ∧ (i 0).val < win1_5.index ⟨(i 0).val / 4000, ht⟩ (0 : Fin 2) * 4000 + 4000; omega
  | ⟨1, _⟩ => show win1_5.index ⟨(i 0).val / 4000, ht⟩ (1 : Fin 2) * 64 ≤ (i 1).val ∧ (i 1).val < win1_5.index ⟨(i 0).val / 4000, ht⟩ (1 : Fin 2) * 64 + 64; omega

/-- The array region 1 leaves: the first activation times the second weight matrix, of the arrays it finds. -/
theorem final1 (c : Dev nD) : (dat1 (F := Ideal) V c).arrAt 5 cfg1.N
    = Cert.Spec.hw2 (V c main_v42) (V c main_v29) (V c main_v43) (V c main_v44) (V c main_arg6) :=
  (dat1 (F := Ideal) V c).arrAt_eq_of_cover 5 _ (fun t _ => flushed5_eq V c t) cover5

end Cert.KernelIdeal.Region1

end
-- ==== Proof.Region2.lean ====
/-
  Region 2 of the program on the extended reals: the whole-array value of its output window.  Every grid point
  t writes rows [4000 t, 4000 t + 4000) of the output, each entry being
  max(a + h·(d·d) + b, 0) of the same rows of the inputs; the 25 blocks tile the 100000 rows.
-/
import proofs.«410774_j68436008894533_2_alg».proof.Proof.Gen.KernelIdeal.Frame
import proofs.«410774_j68436008894533_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-- The body's payload at entry (r, k) of the block: max(a + h·(d·d) + b, 0) of the blocks' entries in row r
    (column k of a, h and b; the single column of d; the single row of b). -/
theorem pay_apply (xd : Vec Ideal S4000x1 .f32) (xh xa : Vec Ideal S4000x64 .f32) (xb : Vec Ideal S1x64 .f32)
    (r : Fin 4000) (k : Fin 64) :
    k2_pay1 xd xh xa xb (ix2 r k)
      = max ((xa (ix2 r k) + xh (ix2 r k) * (xd (ix2 r (0 : Fin 1)) * xd (ix2 r (0 : Fin 1)))) + xb (ix2 (0 : Fin 1) k))
          Cert.Spec.zeroWord := by
  unfold k2_pay1
  simp only [shapeCast_self]
  rw [maximumf_apply, addf_apply, addf_apply, mulf_apply, broadcast_apply]
  rw [broadcastTo_apply _ broadcasts_S4000x1_S4000x64 (ix2 r k) (ix2 r (0 : Fin 1)) (fun a => by
        match a with
        | ⟨0, _⟩ => show r.val = if (4000 : Nat) = 1 then 0 else r.val; rw [if_neg (by decide)]
        | ⟨1, _⟩ => show (0 : Nat) = if (1 : Nat) = 1 then 0 else k.val; rw [if_pos rfl]),
    broadcastTo_apply _ broadcasts_S1x64_S4000x64 (ix2 r k) (ix2 (0 : Fin 1) k) (fun a => by
        match a with
        | ⟨0, _⟩ => show (0 : Nat) = if (1 : Nat) = 1 then 0 else r.val; rw [if_pos rfl]
        | ⟨1, _⟩ => show k.val = if (64 : Nat) = 1 then 0 else k.val; rw [if_neg (by decide)]),
    mulf_apply]
  rfl

/-- The index maps over the grid: windows 0, 1, 2 and 4 sit at block (t, 0), window 3 at block (0, 0); 25 points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ t.val < 25 :=
  (by decide +kernel : ∀ t : Fin grid2.N, _)

/-- What point t writes back is block t of the array of activations: entry (r, k) of the block is entry
    (4000 t + r, k) of the array, and the input blocks are read at the same row (the bias at its single row). -/
theorem flushed_eq (c : Dev nD) (t : Fin cfg2.N) :
    (dat2 V c).flushed 4 t = ((cfg2.win 4).blk t).view.read (Elt Ideal)
      (Cert.Spec.h2 (V c main_v58) (V c main_v45) (V c main_v59) (V c main_v60)) := by
  show (cfg2.win 4).cut (grid2.coords t) ((dat2 V c).after 4 t) = _
  rw [after2_4]
  unfold out2_4
  rw [View.canon_unit_zero hz]
  simp only [View.ld_unit_zero (S := S4000x1) hz, View.ld_unit_zero (S := S4000x64) hz, View.ld_unit_zero (S := S1x64) hz]
  obtain ⟨e00, e01, e10, e11, e20, e21, e30, e31, e40, e41, ht⟩ := idx_facts t
  funext j
  have hj0 : (j 0).val < 4000 := (j 0).isLt
  have hj1 : (j 1).val < 64 := (j 1).isLt
  have hx : (cfg2.win 4).xinj (grid2.coords t) j = ix2 (⟨(j 0).val, hj0⟩ : Fin 4000) (⟨(j 1).val, hj1⟩ : Fin 64) := by
    funext a
    match a with
    | ⟨0, _⟩ => rfl
    | ⟨1, _⟩ => rfl
  show k2_pay1 (iblk2 V c 2 t) (iblk2 V c 1 t) (iblk2 V c 0 t) (iblk2 V c 3 t) ((cfg2.win 4).xinj (grid2.coords t) j) = _
  refine (congrArg (k2_pay1 (iblk2 V c 2 t) (iblk2 V c 1 t) (iblk2 V c 0 t) (iblk2 V c 3 t)) hx).trans
    ((pay_apply (iblk2 V c 2 t) (iblk2 V c 1 t) (iblk2 V c 0 t) (iblk2 V c 3 t) ⟨(j 0).val, hj0⟩ ⟨(j 1).val, hj1⟩).trans ?_)
  have ha : iblk2 V c 0 t (ix2 (⟨(j 0).val, hj0⟩ : Fin 4000) (⟨(j 1).val, hj1⟩ : Fin 64))
      = V c main_v58 (ix2 (⟨((((cfg2.win 4).blk t).view.emb j) 0).val, idx2_lt0 _⟩ : Fin 100000) (⟨((((cfg2.win 4).blk t).view.emb j) 1).val, idx2_lt1 _⟩ : Fin 64)) := by
    show V c main_v58 (((cfg2.win 0).blk t).view.emb (ix2 (⟨(j 0).val, hj0⟩ : Fin 4000) (⟨(j 1).val, hj1⟩ : Fin 64))) = _
    refine congrArg (V c main_v58) (funext fun a => Fin.ext ?_)
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 64 + 1 * (j 1).val = win2_4.index t (1 : Fin 2) * 64 + 1 * (j 1).val; omega
  have hh : iblk2 V c 1 t (ix2 (⟨(j 0).val, hj0⟩ : Fin 4000) (⟨(j 1).val, hj1⟩ : Fin 64))
      = V c main_v45 (ix2 (⟨((((cfg2.win 4).blk t).view.emb j) 0).val, idx2_lt0 _⟩ : Fin 100000) (⟨((((cfg2.win 4).blk t).view.emb j) 1).val, idx2_lt1 _⟩ : Fin 64)) := by
    show V c main_v45 (((cfg2.win 1).blk t).view.emb (ix2 (⟨(j 0).val, hj0⟩ : Fin 4000) (⟨(j 1).val, hj1⟩ : Fin 64))) = _
    refine congrArg (V c main_v45) (funext fun a => Fin.ext ?_)
    match a with
    | ⟨0, _⟩ => show win2_1.index t (0 : Fin 2) * 4000 + 1 * (j 0).val = win2_4.index t (0 : Fin 2) * 4000 + 1 * (j 0).val; omega
    | ⟨1, _⟩ => show win2_1.index t (1 : Fin 2) * 64 + 1 * (j 1).val = win2_4.index t (1 : Fin 2) * 64 + 1 * (j 1).val; omega
  have hd : iblk2 V c 2 t (ix2 (⟨(j 0).val, hj0⟩ : Fin 4000) (0 : Fin 1))
      = V c main_v59 (ix2 (⟨((((cfg2.win 4).blk t).view.emb j) 0).val, idx2_lt0 _⟩ : Fin 100000) (0 : Fin 1)) := by
    show V c main_v59 (((cfg2.win 2).blk t).view.emb (ix2 (⟨(j 0).val, hj0⟩ : Fin 4000) (0 : Fin 1))) = _
    refine congrArg (V c main_v59) (funext fun a => Fin.ext ?_)
    match a with
    | ⟨0, _⟩ => show win2_2.index t (0 : Fin 2) * 4000 + 1 * (j 0).val = win2_4.index t (0 : Fin 2) * 4000 + 1 * (j 0).val; omega
    | ⟨1, _⟩ => show win2_2.index t (1 : Fin 2) * 1 + 1 * 0 = 0; omega
  have hb : iblk2 V c 3 t (ix2 (0 : Fin 1) (⟨(j 1).val, hj1⟩ : Fin 64))
      = V c main_v60 (ix2 (0 : Fin 1) (⟨((((cfg2.win 4).blk t).view.emb j) 1).val, idx2_lt1 _⟩ : Fin 64)) := by
    show V c main_v60 (((cfg2.win 3).blk t).view.emb (ix2 (0 : Fin 1) (⟨(j 1).val, hj1⟩ : Fin 64))) = _
    refine congrArg (V c main_v60) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  rw [ha, hh, hd, hb]
  rfl

/-- An index of the array is in point t's block iff each coordinate is in the block's range on its axis. -/
theorem mem_blk (t : Fin cfg2.N) (i : S100000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v61).slice (win2_4.rect t)).set ↔ _
  rw [View.set_slice_whole, Rect.mem_set_unit]
  exact Iff.rfl

/-- The 25 blocks of 4000 rows tile the 100000 rows: row r is in the block of point r / 4000. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, -, e40, e41, -⟩ := idx_facts t
  refine ⟨t, flush2_4 t, ?_⟩
  rw [mem_blk]
  intro a
  match a with
  | ⟨0, _⟩ =>
    show win2_4.index t (0 : Fin 2) * 4000 ≤ (i 0).val ∧ (i 0).val < win2_4.index t (0 : Fin 2) * 4000 + 4000
    omega
  | ⟨1, _⟩ =>
    show win2_4.index t (1 : Fin 2) * 64 ≤ (i 1).val ∧ (i 1).val < win2_4.index t (1 : Fin 2) * 64 + 64
    omega

/-- The output array of region 2 after its 25 points: the second layer's activation of the arrays the region finds. -/
theorem final2 (c : Dev nD) :
    (dat2 (F := Ideal) V c).arrAt 4 cfg2.N
      = Cert.Spec.h2 (V c main_v58) (V c main_v45) (V c main_v59) (V c main_v60) :=
  (dat2 V c).arrAt_eq_of_cover 4 (Cert.Spec.h2 (V c main_v58) (V c main_v45) (V c main_v59) (V c main_v60))
    (fun t _ => flushed_eq V c t) cover

end Cert.KernelIdeal.Region2

end
-- ==== Proof.RefStages.lean ====
/-
  The node-wise stages of the reference graph network, read one element at a time on the extended reals:
  the first projection is the one-hot rows of the vocabulary words times the table emb·W1, the second
  projection is the first layer's activation times W2, and the second activation is max(a + h·d² + b, 0).
  The second layer recomputes the same degrees, so its inverse square roots and edge normalisations
  are the first layer's.
-/
import proofs.«410774_j68436008894533_2_alg».proof.Proof.Gen.ReferenceIdeal.Read
import proofs.«410774_j68436008894533_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.ValueIdx

/-- The second layer's inverse square roots of the degrees are the first layer's: the same operations on the same edges. -/
theorem dinv2_eq {F : FTy → Type} [FloatOps F] (x1 : (⟨S2x640000, .i32⟩ : BufTy).Contents (Elt F)) :
    val_main_v64 (F := F) x1 = val_main_v19 (F := F) x1 := rfl

/-- The second layer's edge normalisations are the first layer's. -/
theorem norm2_eq {F : FTy → Type} [FloatOps F] (x1 : (⟨S2x640000, .i32⟩ : BufTy).Contents (Elt F)) :
    val_main_v79 (F := F) x1 = val_main_v34 (F := F) x1 := rfl

/-- Element (r, c) of the second activation: the reference's sum, scaling, bias and clip at that element. -/
theorem h2_at (x0 : (⟨S100000x1, .i32⟩ : BufTy).Contents (Elt Ideal)) (x1 : (⟨S2x640000, .i32⟩ : BufTy).Contents (Elt Ideal)) (x3 : (⟨S128x64, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal))
    (d : Cert.Spec.A2 100000 1 EReal) (b : Cert.Spec.A2 1 64 EReal)
    (hd : ∀ r : Fin 100000, d (ix2 r (0 : Fin 1)) = val_main_v19 (F := Ideal) x1 (ix1 r))
    (hb : ∀ k : Fin 64, b (ix2 (0 : Fin 1) k) = x7 (ix1 k)) (r : Fin 100000) (c : Fin 64) :
    Cert.Spec.h2At (val_main_v92 (F := Ideal) x0 x1 x3 x4 x5 x6) (val_main_v57 (F := Ideal) x0 x1 x3 x4 x5 x6) d b r c
      = val_main_v101 (F := Ideal) x0 x1 x3 x4 x5 x6 x7 (ix2 r c) := by
  have e1 : idx_main_v94 (idx_main_v95 (ix2 r c)) = ix1 r := funext fun a => match a with | ⟨0, _⟩ => rfl
  have e2 : idx_main_v98 (idx_main_v99 (ix2 r c)) = ix1 c := funext fun a => match a with | ⟨0, _⟩ => rfl
  unfold Cert.Spec.h2At
  rw [val_main_v101_apply, val_main_v100_apply, val_main_v97_apply, val_main_v96_apply, val_main_v99_apply, val_main_v98_apply,
    val_main_v95_apply, val_main_v94_apply, val_main_v93_apply, val_main_call1_v0_apply, val_main_call1_cst_apply, e1, e2,
    dinv2_eq, hd, hb]
  rfl

/-- The second layer's activation is the reference's value after its second clip. -/
theorem h2_eq (x0 : (⟨S100000x1, .i32⟩ : BufTy).Contents (Elt Ideal)) (x1 : (⟨S2x640000, .i32⟩ : BufTy).Contents (Elt Ideal)) (x3 : (⟨S128x64, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal))
    (d : Cert.Spec.A2 100000 1 EReal) (b : Cert.Spec.A2 1 64 EReal)
    (hd : ∀ r : Fin 100000, d (ix2 r (0 : Fin 1)) = val_main_v19 (F := Ideal) x1 (ix1 r))
    (hb : ∀ k : Fin 64, b (ix2 (0 : Fin 1) k) = x7 (ix1 k)) :
    Cert.Spec.h2 (val_main_v92 (F := Ideal) x0 x1 x3 x4 x5 x6) (val_main_v57 (F := Ideal) x0 x1 x3 x4 x5 x6) d b
      = val_main_v101 (F := Ideal) x0 x1 x3 x4 x5 x6 x7 := by
  funext i
  have hi : i = ix2 (⟨(i 0).val, idx2_lt0 i⟩ : Fin 100000) (⟨(i 1).val, idx2_lt1 i⟩ : Fin 64) := eq_ix2 i
  unfold Cert.Spec.h2
  rw [h2_at x0 x1 x3 x4 x5 x6 x7 d b hd hb, ← hi]

/-- Element (r, k) of the first activation: the reference's sum, scaling, bias and clip at that element. -/
theorem act1_at (x0 : (⟨S100000x1, .i32⟩ : BufTy).Contents (Elt Ideal)) (x1 : (⟨S2x640000, .i32⟩ : BufTy).Contents (Elt Ideal)) (x3 : (⟨S128x64, .f32⟩ : BufTy).Contents (Elt Ideal)) (x4 : (⟨S64x128, .f32⟩ : BufTy).Contents (Elt Ideal)) (x5 : (⟨S128, .f32⟩ : BufTy).Contents (Elt Ideal))
    (d : Cert.Spec.A2 100000 1 EReal) (b : Cert.Spec.A2 1 128 EReal)
    (hd : ∀ r : Fin 100000, d (ix2 r (0 : Fin 1)) = val_main_v19 (F := Ideal) x1 (ix1 r))
    (hb : ∀ k : Fin 128, b (ix2 (0 : Fin 1) k) = x5 (ix1 k)) (r : Fin 100000) (k : Fin 128) :
    Cert.Spec.act1At (val_main_v47 (F := Ideal) x0 x1 x3 x4) (val_main_v12 (F := Ideal) x0 x3 x4) d b r k
      = val_main_v56 (F := Ideal) x0 x1 x3 x4 x5 (ix2 r k) := by
  have e1 : idx_main_v49 (idx_main_v50 (ix2 r k)) = ix1 r := funext fun a => match a with | ⟨0, _⟩ => rfl
  have e2 : idx_main_v53 (idx_main_v54 (ix2 r k)) = ix1 k := funext fun a => match a with | ⟨0, _⟩ => rfl
  unfold Cert.Spec.act1At
  rw [val_main_v56_apply, val_main_v55_apply, val_main_v52_apply, val_main_v51_apply, val_main_v54_apply, val_main_v53_apply,
    val_main_v50_apply, val_main_v49_apply, val_main_v48_apply, val_main_call0_v0_apply, val_main_call0_cst_apply, e1, e2,
    hd, hb]
  rfl

/-- Element (r, c) of the second projection: the first activation's row r against column c of the second weight matrix. -/
theorem hw2_at (x0 : (⟨S100000x1, .i32⟩ : BufTy).Contents (Elt Ideal)) (x1 : (⟨S2x640000, .i32⟩ : BufTy).Contents (Elt Ideal)) (x3 : (⟨S128x64, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal))
    (d : Cert.Spec.A2 100000 1 EReal) (b : Cert.Spec.A2 1 128 EReal)
    (hd : ∀ r : Fin 100000, d (ix2 r (0 : Fin 1)) = val_main_v19 (F := Ideal) x1 (ix1 r))
    (hb : ∀ k : Fin 128, b (ix2 (0 : Fin 1) k) = x5 (ix1 k)) (r : Fin 100000) (c : Fin 64) :
    Cert.Spec.hw2At (val_main_v47 (F := Ideal) x0 x1 x3 x4) (val_main_v12 (F := Ideal) x0 x3 x4) d b x6 r c
      = val_main_v57 (F := Ideal) x0 x1 x3 x4 x5 x6 (ix2 r c) := by
  unfold Cert.Spec.hw2At
  rw [val_main_v57_apply]
  refine Finset.sum_congr rfl fun k _ => ?_
  have el : lidx_main_v57 (ix2 r c) k = ix2 r k := funext fun a => match a with | ⟨0, _⟩ => rfl | ⟨1, _⟩ => rfl
  have er : ridx_main_v57 (ix2 r c) k = ix2 k c := funext fun a => match a with | ⟨0, _⟩ => rfl | ⟨1, _⟩ => rfl
  rw [el, er, act1_at x0 x1 x3 x4 x5 d b hd hb]

/-- The second projection is the reference's product of its first activation with the second weight matrix. -/
theorem hw2_eq (x0 : (⟨S100000x1, .i32⟩ : BufTy).Contents (Elt Ideal)) (x1 : (⟨S2x640000, .i32⟩ : BufTy).Contents (Elt Ideal)) (x3 : (⟨S128x64, .f32⟩ : BufTy).Contents (Elt Ideal)) (x4 : (⟨S64x128, .f32⟩ : BufTy).Contents (Elt Ideal)) (x5 : (⟨S128, .f32⟩ : BufTy).Contents (Elt Ideal)) (x6 : (⟨S128x64, .f32⟩ : BufTy).Contents (Elt Ideal))
    (d : Cert.Spec.A2 100000 1 EReal) (b : Cert.Spec.A2 1 128 EReal)
    (hd : ∀ r : Fin 100000, d (ix2 r (0 : Fin 1)) = val_main_v19 (F := Ideal) x1 (ix1 r))
    (hb : ∀ k : Fin 128, b (ix2 (0 : Fin 1) k) = x5 (ix1 k)) :
    Cert.Spec.hw2 (val_main_v47 (F := Ideal) x0 x1 x3 x4) (val_main_v12 (F := Ideal) x0 x3 x4) d b x6
      = val_main_v57 (F := Ideal) x0 x1 x3 x4 x5 x6 := by
  funext i
  have hi : i = ix2 (⟨(i 0).val, idx2_lt0 i⟩ : Fin 100000) (⟨(i 1).val, idx2_lt1 i⟩ : Fin 64) := eq_ix2 i
  unfold Cert.Spec.hw2
  rw [hw2_at x0 x1 x3 x4 x5 x6 d b hd hb, ← hi]

/-- The one-hot row of a word in [0, 128) picks out that word's entry: every other term of the sum is 0 · y = 0. -/
theorem sum_hot (w : BitVec 32) (h0 : 0 ≤ w.toInt) (h1 : w.toInt < 128) (f : Fin 128 → EReal) :
    ∑ k : Fin 128, Cert.Spec.hot w k * f k = f ⟨w.toInt.toNat, by omega⟩ := by
  have hn : w.toInt = (w.toNat : Int) := by
    have h := BitVec.toInt_eq_toNat_cond w
    have h2 := w.isLt
    split at h <;> omega
  rw [Finset.sum_eq_single (⟨w.toInt.toNat, by omega⟩ : Fin 128)]
  · have hh : Cert.Spec.hot w ⟨w.toInt.toNat, by omega⟩ = 1 := by
      unfold Cert.Spec.hot
      rw [if_pos]
      apply BitVec.eq_of_toNat_eq
      rw [BitVec.toNat_ofNat]
      show w.toNat = w.toInt.toNat % 2 ^ 32
      omega
    rw [hh, one_mul]
  · intro k _ hk
    have hz : Cert.Spec.hot w k = 0 := by
      unfold Cert.Spec.hot
      rw [if_neg]
      intro h
      apply hk
      apply Fin.ext
      have h3 := congrArg BitVec.toNat h
      rw [BitVec.toNat_ofNat] at h3
      have h4 := k.isLt
      show k.val = w.toInt.toNat
      omega
    rw [hz, zero_mul]
  · intro h
    exact absurd (Finset.mem_univ _) h

/-- A vocabulary word that is not negative passes the wrap-around of negative words unchanged. -/
theorem word_at (x0 : (⟨S100000x1, .i32⟩ : BufTy).Contents (Elt Ideal)) (r : Fin 100000) (hx : 0 ≤ (x0 (ix2 r (0 : Fin 1))).toInt) :
    val_main_v10 (F := Ideal) x0 (ix2 r (0 : Fin 1)) = (x0 (ix2 r (0 : Fin 1))) := by
  have e4 : idx_main_v4 (idx_main_v10 (ix2 r (0 : Fin 1))) = ix2 r (0 : Fin 1) :=
    funext fun a => match a with | ⟨0, _⟩ => Fin.ext (Nat.div_one _) | ⟨1, _⟩ => rfl
  have hc : IntOp.cmpi .slt (x0 (ix2 r (0 : Fin 1))) 0#32 = 0#1 :=
    eq_zero_of_ne_one fun h => by
      have h2 := IntOp.cmpi_slt.mp h
      rw [BitVec.toInt_zero] at h2
      omega
  rw [val_main_v10_apply, val_main_v9_apply, val_main_v6_apply, val_main_v4_apply, val_main_v5_apply, val_main_c_apply, e4, hc,
    select_zero]

/-- The gathered row of a node is the embedding table's row at the node's word, when the word is within the table:
    on the row axis the start index is the word, already inside the clamp; on the column axis it is the result's column. -/
theorem emb_at (x0 : (⟨S100000x1, .i32⟩ : BufTy).Contents (Elt Ideal)) (x3 : (⟨S128x64, .f32⟩ : BufTy).Contents (Elt Ideal)) (r : Fin 100000) (k : Fin 64)
    (hx : 0 ≤ (x0 (ix2 r (0 : Fin 1))).toInt ∧ (x0 (ix2 r (0 : Fin 1))).toInt < 128) :
    val_main_v11 (F := Ideal) x0 x3 (ix2 r k)
      = x3 (ix2 (⟨(x0 (ix2 r (0 : Fin 1))).toInt.toNat, by omega⟩ : Fin 128) k) := by
  unfold val_main_v11 Host.gather
  congr 1
  funext a
  refine Fin.ext ?_
  match a with
  | ⟨0, _⟩ =>
    show gather_S128x64_S100000x1_S100000x64_1_0_n_n_0_1_164.start (ix2 r k) (val_main_v10 (F := Ideal) x0) 0 + gather_S128x64_S100000x1_S100000x64_1_0_n_n_0_1_164.batchCoord (ix2 r k) 0 + gather_S128x64_S100000x1_S100000x64_1_0_n_n_0_1_164.offCoord (ix2 r k) 0 = (x0 (ix2 r (0 : Fin 1))).toInt.toNat
    rw [GatherDims.batchCoord_eq_zero gather_S128x64_S100000x1_S100000x64_1_0_n_n_0_1_164 (ix2 r k) 0 (by decide),
      GatherDims.offCoord_eq_zero gather_S128x64_S100000x1_S100000x64_1_0_n_n_0_1_164 (ix2 r k) 0 (fun h => ((GatherDims.mem_sKept gather_S128x64_S100000x1_S100000x64_1_0_n_n_0_1_164 0).mp h).1 (by decide))]
    simp only [Nat.add_zero]
    unfold GatherDims.start
    rw [dif_pos (show (0 : Fin S128x64.rank) ∈ gather_S128x64_S100000x1_S100000x64_1_0_n_n_0_1_164.startIndexMap by decide)]
    have hsi : gather_S128x64_S100000x1_S100000x64_1_0_n_n_0_1_164.siIdx (ix2 r k) ⟨List.idxOf (0 : Fin S128x64.rank) gather_S128x64_S100000x1_S100000x64_1_0_n_n_0_1_164.startIndexMap,
        List.idxOf_lt_length_iff.2 (by decide)⟩ = ix2 r (0 : Fin 1) := by
      funext b
      refine Fin.ext ?_
      match b with
      | ⟨0, _⟩ => rfl
      | ⟨1, _⟩ => rfl
    rw [hsi, word_at x0 r hx.1]
    show min (x0 (ix2 r (0 : Fin 1))).toInt.toNat (128 - 1) = (x0 (ix2 r (0 : Fin 1))).toInt.toNat
    omega
  | ⟨1, _⟩ =>
    show gather_S128x64_S100000x1_S100000x64_1_0_n_n_0_1_164.start (ix2 r k) (val_main_v10 (F := Ideal) x0) 1 + gather_S128x64_S100000x1_S100000x64_1_0_n_n_0_1_164.batchCoord (ix2 r k) 1 + gather_S128x64_S100000x1_S100000x64_1_0_n_n_0_1_164.offCoord (ix2 r k) 1 = k.val
    rw [GatherDims.batchCoord_eq_zero gather_S128x64_S100000x1_S100000x64_1_0_n_n_0_1_164 (ix2 r k) 1 (by decide)]
    unfold GatherDims.start
    rw [dif_neg (show ¬ (1 : Fin S128x64.rank) ∈ gather_S128x64_S100000x1_S100000x64_1_0_n_n_0_1_164.startIndexMap by decide)]
    unfold GatherDims.offCoord
    rw [dif_pos (show (1 : Fin S128x64.rank) ∈ gather_S128x64_S100000x1_S100000x64_1_0_n_n_0_1_164.sKept by decide)]
    simp only [Nat.add_zero, Nat.zero_add]
    rfl

/-- Element (r, c) of the first projection: the one-hot row of the node's word against column c of the table emb·W1 is
    the table's entry at the word, which is the gathered embedding row against column c of W1. -/
theorem hw1_at (x0 : (⟨S100000x1, .i32⟩ : BufTy).Contents (Elt Ideal)) (x3 : (⟨S128x64, .f32⟩ : BufTy).Contents (Elt Ideal)) (x4 : (⟨S64x128, .f32⟩ : BufTy).Contents (Elt Ideal))
    (xr : Cert.Spec.A2 100000 1 (BitVec 32)) (T : Cert.Spec.A2 128 128 EReal)
    (hxr : ∀ r : Fin 100000, xr (ix2 r (0 : Fin 1)) = x0 (ix2 r (0 : Fin 1)))
    (hT : ∀ (v c : Fin 128), T (ix2 v c) = ∑ k : Fin 64, x3 (ix2 v k) * x4 (ix2 k c))
    (r : Fin 100000) (c : Fin 128) (hx : 0 ≤ (x0 (ix2 r (0 : Fin 1))).toInt ∧ (x0 (ix2 r (0 : Fin 1))).toInt < 128) :
    Cert.Spec.hw1At xr T r c = val_main_v12 (F := Ideal) x0 x3 x4 (ix2 r c) := by
  unfold Cert.Spec.hw1At
  rw [hxr r]
  refine (sum_hot _ hx.1 hx.2 (fun k => T (ix2 k c))).trans ?_
  beta_reduce
  rw [hT, val_main_v12_apply]
  refine Finset.sum_congr rfl fun k _ => ?_
  have el : lidx_main_v12 (ix2 r c) k = ix2 r k := funext fun a => match a with | ⟨0, _⟩ => rfl | ⟨1, _⟩ => rfl
  have er : ridx_main_v12 (ix2 r c) k = ix2 k c := funext fun a => match a with | ⟨0, _⟩ => rfl | ⟨1, _⟩ => rfl
  rw [el, er, emb_at x0 x3 r k hx]

/-- The first projection is the reference's product of the gathered embedding rows with the first weight matrix. -/
theorem hw1_eq (x0 : (⟨S100000x1, .i32⟩ : BufTy).Contents (Elt Ideal)) (x3 : (⟨S128x64, .f32⟩ : BufTy).Contents (Elt Ideal)) (x4 : (⟨S64x128, .f32⟩ : BufTy).Contents (Elt Ideal))
    (xr : Cert.Spec.A2 100000 1 (BitVec 32)) (T : Cert.Spec.A2 128 128 EReal)
    (hxr : ∀ r : Fin 100000, xr (ix2 r (0 : Fin 1)) = x0 (ix2 r (0 : Fin 1)))
    (hT : ∀ (v c : Fin 128), T (ix2 v c) = ∑ k : Fin 64, x3 (ix2 v k) * x4 (ix2 k c))
    (hx : ∀ r : Fin 100000, 0 ≤ (x0 (ix2 r (0 : Fin 1))).toInt ∧ (x0 (ix2 r (0 : Fin 1))).toInt < 128) :
    Cert.Spec.hw1 xr T = val_main_v12 (F := Ideal) x0 x3 x4 := by
  funext i
  have hi : i = ix2 (⟨(i 0).val, idx2_lt0 i⟩ : Fin 100000) (⟨(i 1).val, idx2_lt1 i⟩ : Fin 128) := eq_ix2 i
  unfold Cert.Spec.hw1
  rw [hw1_at x0 x3 x4 xr T hxr hT _ _ (hx _), ← hi]

end Cert.ReferenceIdeal.Stages

end
-- ==== Proof.KernelValue.lean ====
/-
  The kernel's program, read whole: what its result buffer holds after the run, as a function of the arguments.

  The program alternates host stretches with three regions.  Walking the buffer contents from boundary to boundary:
  the first stretch prepares the graph's normalisation (the reference's own operations), the table T = emb·W1 and
  the vocabulary words as a column; region 0 leaves  Σ_k [x[r] = k]·T[k, c], which for words in [0, 128) is row x[r]
  of emb times W1 — the reference's first projection; each later stretch repeats the reference's message passing on
  arrays already known to be the reference's stages, and each later region leaves the reference's next stage
  (activation times W2, then the second activation); the last stretch is the reference's mean pooling.  So the
  result buffer ends at the reference's last stage of the same arguments.
-/
import proofs.«410774_j68436008894533_2_alg».proof.Proof.KernelRun
import proofs.«410774_j68436008894533_2_alg».proof.Proof.KernelHost
import proofs.«410774_j68436008894533_2_alg».proof.Proof.Region0
import proofs.«410774_j68436008894533_2_alg».proof.Proof.Region1
import proofs.«410774_j68436008894533_2_alg».proof.Proof.Region2
import proofs.«410774_j68436008894533_2_alg».proof.Proof.RefStages
import proofs.«410774_j68436008894533_2_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Cert.ReferenceIdeal.Read Cert.KernelIdeal.HostStages

/-! ## Two layout readings -/

/-- A vector set up as a column reads its entry at every row. -/
theorem col_at {α : Type} {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The table emb·W1 at an entry -/

theorem table_lhs0 (i : S128x128.Idx) (q : dot_S128x64_S64x128_S128x128_1_0_0_1_n_n.contr.Idx) : (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
theorem table_lhs1 (i : S128x128.Idx) (q : dot_S128x64_S64x128_S128x128_1_0_0_1_n_n.contr.Idx) : (dot_S128x64_S64x128_S128x128_1_0_0_1_n_n.lhsIdx i q 1).val = (q ⟨0, by decide⟩).val :=
  dot_S128x64_S64x128_S128x128_1_0_0_1_n_n.lhsIdx_val_of_single rfl i q
theorem table_rhs0 (i : S128x128.Idx) (q : dot_S128x64_S64x128_S128x128_1_0_0_1_n_n.contr.Idx) : (dot_S128x64_S64x128_S128x128_1_0_0_1_n_n.rhsIdx i q 0).val = (q ⟨0, by decide⟩).val :=
  dot_S128x64_S64x128_S128x128_1_0_0_1_n_n.rhsIdx_val_of_single rfl i q
theorem table_rhs1 (i : S128x128.Idx) (q : dot_S128x64_S64x128_S128x128_1_0_0_1_n_n.contr.Idx) : (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- Entry (v, c) of emb·W1 is the sum over the embedding width of emb[v, k]·W1[k, c]. -/
theorem table_at (x3 : FVec Ideal S128x64 .f32) (x4 : FVec Ideal S64x128 .f32) (v c : Fin 128) :
    Host.dotGeneral (F := Ideal) (φ₁ := .f32) (φ₂ := .f32) dot_S128x64_S64x128_S128x128_1_0_0_1_n_n none x3 x4 (ix2 v c) = ∑ k : Fin 64, x3 (ix2 v k) * x4 (ix2 k c) := by
  simp only [Host.dotGeneral]
  rw [Ideal.dotGeneral_apply, ← Equiv.sum_comp (ValueIdx.contrEquiv1 dot_S128x64_S64x128_S128x128_1_0_0_1_n_n 64 rfl rfl).symm]
  refine Finset.sum_congr rfl fun k _ => ?_
  have hk := ValueIdx.contrEquiv1_symm_val dot_S128x64_S64x128_S128x128_1_0_0_1_n_n 64 rfl rfl k
  have el : dot_S128x64_S64x128_S128x128_1_0_0_1_n_n.lhsIdx (ix2 v c) ((ValueIdx.contrEquiv1 dot_S128x64_S64x128_S128x128_1_0_0_1_n_n 64 rfl rfl).symm k) = ix2 v k := funext fun a => Fin.ext (by
    match a with
    | ⟨0, _⟩ => exact table_lhs0 _ _
    | ⟨1, _⟩ => exact (table_lhs1 _ _).trans hk)
  have er : dot_S128x64_S64x128_S128x128_1_0_0_1_n_n.rhsIdx (ix2 v c) ((ValueIdx.contrEquiv1 dot_S128x64_S64x128_S128x128_1_0_0_1_n_n 64 rfl rfl).symm k) = ix2 k c := funext fun a => Fin.ext (by
    match a with
    | ⟨0, _⟩ => exact (table_rhs0 _ _).trans hk
    | ⟨1, _⟩ => exact table_rhs1 _ _)
  rw [el, er]

/-! ## The walk through the boundaries -/

variable (m : (ℓ : Loc nD τ sig) → Buf (Elt Ideal) ℓ) (ρ : Dev nD → PrngReg) (c : Dev nD)

/-- The arguments, typed as the reference's stages take them. -/
abbrev a0 : (⟨Cert.ReferenceIdeal.S100000x1, .i32⟩ : BufTy).Contents (Elt Ideal) := m ((c : Thread nD τ).loc main_arg0)
abbrev a1 : (⟨Cert.ReferenceIdeal.S2x640000, .i32⟩ : BufTy).Contents (Elt Ideal) := m ((c : Thread nD τ).loc main_arg1)
abbrev a2 : (⟨Cert.ReferenceIdeal.S100000, .i32⟩ : BufTy).Contents (Elt Ideal) := m ((c : Thread nD τ).loc main_arg2)
abbrev a3 : (⟨Cert.ReferenceIdeal.S128x64, .f32⟩ : BufTy).Contents (Elt Ideal) := m ((c : Thread nD τ).loc main_arg3)
abbrev a4 : (⟨Cert.ReferenceIdeal.S64x128, .f32⟩ : BufTy).Contents (Elt Ideal) := m ((c : Thread nD τ).loc main_arg4)
abbrev a5 : (⟨Cert.ReferenceIdeal.S128, .f32⟩ : BufTy).Contents (Elt Ideal) := m ((c : Thread nD τ).loc main_arg5)
abbrev a6 : (⟨Cert.ReferenceIdeal.S128x64, .f32⟩ : BufTy).Contents (Elt Ideal) := m ((c : Thread nD τ).loc main_arg6)
abbrev a7 : (⟨Cert.ReferenceIdeal.S64, .f32⟩ : BufTy).Contents (Elt Ideal) := m ((c : Thread nD τ).loc main_arg7)

/-! ### Entering region 0 -/

theorem w1_src : W1 m ρ c (Proc.devRef .tc main_v2) = val_main_v1 (F := Ideal) (a1 m c) := stretch0_src (W0 m ρ c)
theorem w1_dst : W1 m ρ c (Proc.devRef .tc main_v4) = val_main_v3 (F := Ideal) (a1 m c) := stretch0_dst (W0 m ρ c)
theorem w1_dinv : W1 m ρ c (Proc.devRef .tc main_v11) = val_main_v19 (F := Ideal) (a1 m c) := stretch0_dinv (W0 m ρ c)
theorem w1_norm : W1 m ρ c (Proc.devRef .tc main_v26) = val_main_v34 (F := Ideal) (a1 m c) := stretch0_norm (W0 m ρ c)
theorem w1_arg2 : W1 m ρ c (Proc.devRef .tc main_arg2) = a2 m c := stretch0_keep_main_arg2 (W0 m ρ c)
theorem w1_arg5 : W1 m ρ c (Proc.devRef .tc main_arg5) = a5 m c := stretch0_keep_main_arg5 (W0 m ρ c)
theorem w1_arg6 : W1 m ρ c (Proc.devRef .tc main_arg6) = a6 m c := stretch0_keep_main_arg6 (W0 m ρ c)
theorem w1_arg7 : W1 m ρ c (Proc.devRef .tc main_arg7) = a7 m c := stretch0_keep_main_arg7 (W0 m ρ c)

/-- The words reach region 0 unchanged: flattened and set up as a column again. -/
theorem w1_words : V1 m ρ c main_v28 = a0 m c :=
  (stretch0_words (W0 m ρ c)).trans (shapeCast_shapeCast _ _ _)

/-- The table region 0 reads, at an entry. -/
theorem w1_table (v k : Fin 128) : V1 m ρ c main_v27 (ix2 v k) = ∑ j : Fin 64, a3 m c (ix2 v j) * a4 m c (ix2 j k) :=
  (congrFun (stretch0_table (W0 m ρ c)) (ix2 v k)).trans (table_at _ _ v k)

/-! ### Leaving region 0 -/

variable (hx : ∀ r : Fin 100000, 0 ≤ (a0 m c (ix2 r (0 : Fin 1))).toInt ∧ (a0 m c (ix2 r (0 : Fin 1))).toInt < 128)

include hx in
/-- Region 0 leaves the reference's first projection. -/
theorem w2_hw1 : W2 m ρ c (Proc.devRef .tc main_v29) = val_main_v12 (F := Ideal) (a0 m c) (a3 m c) (a4 m c) := by
  refine (W2_arr m ρ c 2).trans ?_
  rw [Cert.KernelIdeal.Region0.final0 (V1 m ρ) c]
  exact Cert.ReferenceIdeal.Stages.hw1_eq (a0 m c) (a3 m c) (a4 m c) (V1 m ρ c main_v28) (V1 m ρ c main_v27)
    (fun r => congrFun (w1_words m ρ c) _) (fun v k => w1_table m ρ c v k) hx

theorem w2_src : W2 m ρ c (Proc.devRef .tc main_v2) = val_main_v1 (F := Ideal) (a1 m c) := (W2_of_ne m ρ c main_v2 (by decide)).trans (w1_src m ρ c)
theorem w2_dst : W2 m ρ c (Proc.devRef .tc main_v4) = val_main_v3 (F := Ideal) (a1 m c) := (W2_of_ne m ρ c main_v4 (by decide)).trans (w1_dst m ρ c)
theorem w2_dinv : W2 m ρ c (Proc.devRef .tc main_v11) = val_main_v19 (F := Ideal) (a1 m c) := (W2_of_ne m ρ c main_v11 (by decide)).trans (w1_dinv m ρ c)
theorem w2_norm : W2 m ρ c (Proc.devRef .tc main_v26) = val_main_v34 (F := Ideal) (a1 m c) := (W2_of_ne m ρ c main_v26 (by decide)).trans (w1_norm m ρ c)
theorem w2_arg2 : W2 m ρ c (Proc.devRef .tc main_arg2) = a2 m c := (W2_of_ne m ρ c main_arg2 (by decide)).trans (w1_arg2 m ρ c)
theorem w2_arg5 : W2 m ρ c (Proc.devRef .tc main_arg5) = a5 m c := (W2_of_ne m ρ c main_arg5 (by decide)).trans (w1_arg5 m ρ c)
theorem w2_arg6 : W2 m ρ c (Proc.devRef .tc main_arg6) = a6 m c := (W2_of_ne m ρ c main_arg6 (by decide)).trans (w1_arg6 m ρ c)
theorem w2_arg7 : W2 m ρ c (Proc.devRef .tc main_arg7) = a7 m c := (W2_of_ne m ρ c main_arg7 (by decide)).trans (w1_arg7 m ρ c)

/-! ### Entering region 1 -/

include hx in
theorem w3_agg : V3 m ρ c main_v42 = val_main_v47 (F := Ideal) (a0 m c) (a1 m c) (a3 m c) (a4 m c) :=
  stretch1_agg (W2 m ρ c) _ _ _ _ (w2_hw1 m ρ c hx) (w2_src m ρ c) (w2_dst m ρ c) (w2_norm m ρ c)
include hx in
theorem w3_hw1 : V3 m ρ c main_v29 = val_main_v12 (F := Ideal) (a0 m c) (a3 m c) (a4 m c) :=
  (stretch1_keep_main_v29 (W2 m ρ c)).trans (w2_hw1 m ρ c hx)
theorem w3_dcol (r : Fin 100000) : V3 m ρ c main_v43 (ix2 r (0 : Fin 1)) = val_main_v19 (F := Ideal) (a1 m c) (ix1 r) := by
  refine (congrFun (stretch1_dcol (W2 m ρ c)) _).trans ?_
  rw [w2_dinv m ρ c]
  exact col_at _ _ r 0
theorem w3_brow (k : Fin 128) : V3 m ρ c main_v44 (ix2 (0 : Fin 1) k) = a5 m c (ix1 k) := by
  refine (congrFun (stretch1_brow (W2 m ρ c)) _).trans ?_
  rw [w2_arg5 m ρ c]
  exact shapeCast_a_1a_apply _ _ 0 k
theorem w3_w2 : V3 m ρ c main_arg6 = a6 m c := (stretch1_keep_main_arg6 (W2 m ρ c)).trans (w2_arg6 m ρ c)
theorem w3_src : W3 m ρ c (Proc.devRef .tc main_v2) = val_main_v1 (F := Ideal) (a1 m c) := (stretch1_keep_main_v2 (W2 m ρ c)).trans (w2_src m ρ c)
theorem w3_dst : W3 m ρ c (Proc.devRef .tc main_v4) = val_main_v3 (F := Ideal) (a1 m c) := (stretch1_keep_main_v4 (W2 m ρ c)).trans (w2_dst m ρ c)
theorem w3_dinv : W3 m ρ c (Proc.devRef .tc main_v11) = val_main_v19 (F := Ideal) (a1 m c) := (stretch1_keep_main_v11 (W2 m ρ c)).trans (w2_dinv m ρ c)
theorem w3_norm : W3 m ρ c (Proc.devRef .tc main_v26) = val_main_v34 (F := Ideal) (a1 m c) := (stretch1_keep_main_v26 (W2 m ρ c)).trans (w2_norm m ρ c)
theorem w3_arg2 : W3 m ρ c (Proc.devRef .tc main_arg2) = a2 m c := (stretch1_keep_main_arg2 (W2 m ρ c)).trans (w2_arg2 m ρ c)
theorem w3_arg7 : W3 m ρ c (Proc.devRef .tc main_arg7) = a7 m c := (stretch1_keep_main_arg7 (W2 m ρ c)).trans (w2_arg7 m ρ c)

/-! ### Leaving region 1 -/

include hx in
/-- Region 1 leaves the reference's second projection: the first activation times W2. -/
theorem w4_hw2 : W4 m ρ c (Proc.devRef .tc main_v45) = val_main_v57 (F := Ideal) (a0 m c) (a1 m c) (a3 m c) (a4 m c) (a5 m c) (a6 m c) := by
  refine (W4_arr m ρ c 5).trans ?_
  rw [Cert.KernelIdeal.Region1.final1 (V3 m ρ) c, w3_agg m ρ c hx, w3_hw1 m ρ c hx, w3_w2 m ρ c]
  exact Cert.ReferenceIdeal.Stages.hw2_eq (a0 m c) (a1 m c) (a3 m c) (a4 m c) (a5 m c) (a6 m c) (V3 m ρ c main_v43) (V3 m ρ c main_v44)
    (fun r => w3_dcol m ρ c r) (fun k => w3_brow m ρ c k)

theorem w4_src : W4 m ρ c (Proc.devRef .tc main_v2) = val_main_v1 (F := Ideal) (a1 m c) := (W4_of_ne m ρ c main_v2 (by decide)).trans (w3_src m ρ c)
theorem w4_dst : W4 m ρ c (Proc.devRef .tc main_v4) = val_main_v3 (F := Ideal) (a1 m c) := (W4_of_ne m ρ c main_v4 (by decide)).trans (w3_dst m ρ c)
theorem w4_dinv : W4 m ρ c (Proc.devRef .tc main_v11) = val_main_v19 (F := Ideal) (a1 m c) := (W4_of_ne m ρ c main_v11 (by decide)).trans (w3_dinv m ρ c)
theorem w4_norm : W4 m ρ c (Proc.devRef .tc main_v26) = val_main_v79 (F := Ideal) (a1 m c) :=
  ((W4_of_ne m ρ c main_v26 (by decide)).trans (w3_norm m ρ c)).trans (Cert.ReferenceIdeal.Stages.norm2_eq (a1 m c)).symm
theorem w4_arg2 : W4 m ρ c (Proc.devRef .tc main_arg2) = a2 m c := (W4_of_ne m ρ c main_arg2 (by decide)).trans (w3_arg2 m ρ c)
theorem w4_arg7 : W4 m ρ c (Proc.devRef .tc main_arg7) = a7 m c := (W4_of_ne m ρ c main_arg7 (by decide)).trans (w3_arg7 m ρ c)

/-! ### Entering region 2 -/

include hx in
theorem w5_agg : V5 m ρ c main_v58 = val_main_v92 (F := Ideal) (a0 m c) (a1 m c) (a3 m c) (a4 m c) (a5 m c) (a6 m c) :=
  stretch2_agg (W4 m ρ c) _ _ _ _ _ _ (w4_hw2 m ρ c hx) (w4_src m ρ c) (w4_dst m ρ c) (w4_norm m ρ c)
include hx in
theorem w5_hw2 : V5 m ρ c main_v45 = val_main_v57 (F := Ideal) (a0 m c) (a1 m c) (a3 m c) (a4 m c) (a5 m c) (a6 m c) :=
  (stretch2_keep_main_v45 (W4 m ρ c)).trans (w4_hw2 m ρ c hx)
theorem w5_dcol (r : Fin 100000) : V5 m ρ c main_v59 (ix2 r (0 : Fin 1)) = val_main_v19 (F := Ideal) (a1 m c) (ix1 r) := by
  refine (congrFun (stretch2_dcol (W4 m ρ c)) _).trans ?_
  rw [w4_dinv m ρ c]
  exact col_at _ _ r 0
theorem w5_brow (k : Fin 64) : V5 m ρ c main_v60 (ix2 (0 : Fin 1) k) = a7 m c (ix1 k) := by
  refine (congrFun (stretch2_brow (W4 m ρ c)) _).trans ?_
  rw [w4_arg7 m ρ c]
  exact shapeCast_a_1a_apply _ _ 0 k
theorem w5_arg2 : W5 m ρ c (Proc.devRef .tc main_arg2) = a2 m c := (stretch2_keep_main_arg2 (W4 m ρ c)).trans (w4_arg2 m ρ c)

/-! ### Leaving region 2, and the pooling -/

include hx in
/-- Region 2 leaves the reference's second activation. -/
theorem w6_h2 : W6 m ρ c (Proc.devRef .tc main_v61)
    = val_main_v101 (F := Ideal) (a0 m c) (a1 m c) (a3 m c) (a4 m c) (a5 m c) (a6 m c) (a7 m c) := by
  refine (W6_arr m ρ c 4).trans ?_
  rw [Cert.KernelIdeal.Region2.final2 (V5 m ρ) c, w5_agg m ρ c hx, w5_hw2 m ρ c hx]
  exact Cert.ReferenceIdeal.Stages.h2_eq (a0 m c) (a1 m c) (a3 m c) (a4 m c) (a5 m c) (a6 m c) (a7 m c) (V5 m ρ c main_v59) (V5 m ρ c main_v60)
    (fun r => w5_dcol m ρ c r) (fun k => w5_brow m ρ c k)

theorem w6_arg2 : W6 m ρ c (Proc.devRef .tc main_arg2) = a2 m c := (W6_of_ne m ρ c main_arg2 (by decide)).trans (w5_arg2 m ρ c)

include hx in
/-- THE RESULT BUFFER after the run is the reference's last stage of the same arguments. -/
theorem w7_out : W7 m ρ c (Proc.devRef .tc main_v73)
    = val_main_v113 (F := Ideal) (a0 m c) (a1 m c) (a2 m c) (a3 m c) (a4 m c) (a5 m c) (a6 m c) (a7 m c) :=
  stretch3_out (W6 m ρ c) _ _ _ _ _ _ _ _ (w6_h2 m ρ c hx) (w6_arg2 m ρ c)

omit hx in
/-- THE RUN, READ: every weakly fair execution of the kernel's program terminates, nothing faulting, with the result
    buffer at the reference's last stage of the arguments and the arguments unchanged — when every vocabulary word is
    in [0, 128). -/
theorem run (hxs : ∀ (c : Dev nD) (r : Fin 100000), 0 ≤ (a0 m c (ix2 r (0 : Fin 1))).toInt ∧ (a0 m c (ix2 r (0 : Fin 1))).toInt < 128) :
    θ_run defs (onTc (τ := τ) (main (F := Ideal))) ⟨m, fun _ => 0, ρ⟩ (fun r => ∀ c : Dev nD,
      r.2.mem ((c.tc : Thread nD τ).loc main_v73)
        = val_main_v113 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (w7_out m ρ c (hxs c)), (h c).2⟩) (run_main m ρ)

end Cert.KernelIdeal.Whole

end
-- ==== Proof.PreDecode.lean ====
/-
  What the precondition says of the vocabulary words: every word lies in [0, 128), the range of the
  embedding table's rows.  The precondition is a conjunction of "all" reductions; its last conjunct is the "all" of
  (0 ≤ x) ∧ (x < 128) over the words, both comparisons signed.
-/
import proofs.«410774_j68436008894533_2_alg».proof.Pre_finite_inputs
import proofs.«410774_j68436008894533_2_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Pre_finite_inputs.Decode

open Cert.Pre_finite_inputs Cert.Pre_finite_inputs.Gen Idealize.ShloMosaic Idealize.ShloMosaic.ValueIdx

instance : Subsingleton S_.Idx := ⟨fun a b => funext fun d => d.elim0⟩

/-- A signed "0 ≤ w" and a signed "w < 128" that both hold bound the word's signed value. -/
theorem word_bounds (w : BitVec 32) (h0 : IntOp.cmpi .sge w 0#32 = 1#1) (h1 : IntOp.cmpi .slt w 128#32 = 1#1) :
    0 ≤ w.toInt ∧ w.toInt < 128 := by
  have h0 : BitVec.ofBool ((0#32 : BitVec 32).sle w) = 1#1 := h0
  have h1 : BitVec.ofBool (w.slt 128#32) = 1#1 := h1
  have e0 : (0#32 : BitVec 32).toInt = 0 := by decide
  have e1 : (128#32 : BitVec 32).toInt = 128 := by decide
  constructor
  · have : (0#32 : BitVec 32).sle w = true := by
      cases hb : (0#32 : BitVec 32).sle w
      · rw [hb] at h0; exact absurd h0 (by decide)
      · rfl
    have := (BitVec.sle_iff_toInt_le).mp this
    omega
  · have : w.slt 128#32 = true := by
      cases hb : w.slt 128#32
      · rw [hb] at h1; exact absurd h1 (by decide)
      · rfl
    have := (BitVec.slt_iff_toInt_lt).mp this
    omega

/-- Under the precondition every vocabulary word is in [0, 128). -/
theorem words_in_range (a0 : IVec S100000x1 32) (a1 : IVec S2x640000 32) (a2 : IVec S100000 32) (a3 : FVec Ideal S128x64 .f32)
    (a4 : FVec Ideal S64x128 .f32) (a5 : FVec Ideal S128 .f32) (a6 : FVec Ideal S128x64 .f32) (a7 : FVec Ideal S64 .f32)
    (h : fn (F := Ideal) a0 a1 a2 a3 a4 a5 a6 a7 = fun _ => 1#1) (r : Fin 100000) :
    0 ≤ (a0 (ix2 r (0 : Fin 1))).toInt ∧ (a0 (ix2 r (0 : Fin 1))).toInt < 128 := by
  have h' := congrFun h ix0
  dsimp only [fn, fn_part1] at h'
  have hall := (IntOp.andi_eq_one.mp h').2
  have hr := Host.reduce_andi_all _ _ _ _ ix0 hall (ix2 r (0 : Fin 1))
  have hb := IntOp.andi_eq_one.mp hr
  exact word_bounds _ hb.1 hb.2

end Cert.Pre_finite_inputs.Decode

end
-- ==== Proof.lean ====
/-
  The certificate of the graph network kernel against its reference: embedding lookup, two graph-convolution layers
  with symmetric degree normalisation and self-loops, and the mean over each graph's nodes.

  The three frames are the generated ones (the reference's is its run with the result dropped).  Nothing was rewritten
  by the idealization, so `preserves` is trivial.  The value claim: the kernel computes the first projection as a
  one-hot matrix product with the table emb·W1, which is the reference's gathered row times W1 exactly when every
  vocabulary word lies in [0, 128) — the precondition's last conjunct; outside that range the reference clamps the
  word while a one-hot row is all zeros.  Every later stage is the reference's own operations on equal arrays
  (the aggregations on the host, the activations and the second product inside the regions, no reassociation), so the
  kernel's result buffer ends at the reference's last stage of the same arguments, and the reference's run ends at
  that stage by definition.
-/
import proofs.«410774_j68436008894533_2_alg».proof.Defs
import proofs.«410774_j68436008894533_2_alg».proof.Proof.Gen.Kernel
import proofs.«410774_j68436008894533_2_alg».proof.Proof.Gen.Kernel.Skeleton
import proofs.«410774_j68436008894533_2_alg».proof.Proof.Gen.Kernel.Launch
import proofs.«410774_j68436008894533_2_alg».proof.Proof.Gen.Kernel.Points
import proofs.«410774_j68436008894533_2_alg».proof.Proof.Gen.Kernel.Frame
import proofs.«410774_j68436008894533_2_alg».proof.Proof.Gen.KernelIdeal
import proofs.«410774_j68436008894533_2_alg».proof.Proof.Gen.KernelIdeal.Skeleton
import proofs.«410774_j68436008894533_2_alg».proof.Proof.Gen.KernelIdeal.Launch
import proofs.«410774_j68436008894533_2_alg».proof.Proof.Gen.KernelIdeal.Points
import proofs.«410774_j68436008894533_2_alg».proof.Proof.Gen.KernelIdeal.Frame
import proofs.«410774_j68436008894533_2_alg».proof.Proof.Gen.ReferenceIdeal
import proofs.«410774_j68436008894533_2_alg».proof.Proof.Gen.ReferenceIdeal.Run
import proofs.«410774_j68436008894533_2_alg».proof.Proof.Gen.ReferenceIdeal.Read
import proofs.«410774_j68436008894533_2_alg».proof.Proof.Gen.Pre_finite_inputs
import proofs.«410774_j68436008894533_2_alg».proof.Proof.KernelValue
import proofs.«410774_j68436008894533_2_alg».proof.Proof.PreDecode
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the reference's last stage of the (agreeing) arguments. -/
theorem algebraic : Cert.algebraic_KernelIdeal_ReferenceIdeal := by
  intro m ρ m' ρ' hpre hagree
  have hxs : ∀ (c : Dev Cert.KernelIdeal.nD) (r : Fin 100000),
      0 ≤ (Cert.KernelIdeal.Whole.a0 m c (ix2 r (0 : Fin 1))).toInt ∧ (Cert.KernelIdeal.Whole.a0 m c (ix2 r (0 : Fin 1))).toInt < 128 :=
    fun c r => Cert.Pre_finite_inputs.Decode.words_in_range _ _ _ _ _ _ _ _ (hpre c) r
  refine ⟨_, Cert.KernelIdeal.Whole.run m ρ hxs, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v113_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
